-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x26 : Shape := ⟨2, ![16384, 26]⟩
abbrev S16384x13 : Shape := ⟨2, ![16384, 13]⟩
abbrev S26x100000x32 : Shape := ⟨3, ![26, 100000, 32]⟩
abbrev S26x100000 : Shape := ⟨2, ![26, 100000]⟩
abbrev S845x1024 : Shape := ⟨2, ![845, 1024]⟩
abbrev S1024 : Shape := ⟨1, ![1024]⟩
abbrev S1024x512 : Shape := ⟨2, ![1024, 512]⟩
abbrev S512 : Shape := ⟨1, ![512]⟩
abbrev S512x256 : Shape := ⟨2, ![512, 256]⟩
abbrev S256 : Shape := ⟨1, ![256]⟩
abbrev S256x1 : Shape := ⟨2, ![256, 1]⟩
abbrev S1 : Shape := ⟨1, ![1]⟩
abbrev S_ : Shape := ⟨0, ![]⟩

class Facts : Prop where
  bcast_S_S16384x13 : S_.BroadcastsInDim S16384x13 (![] : Fin 0 → Fin S16384x13.rank)
  reducesTo_S16384x13_S_d0_1 : S16384x13.ReducesTo [0, 1] S_
  h_S_ : 0 < S_.numel
  bcast_S_S26x100000x32 : S_.BroadcastsInDim S26x100000x32 (![] : Fin 0 → Fin S26x100000x32.rank)
  reducesTo_S26x100000x32_S_d0_1_2 : S26x100000x32.ReducesTo [0, 1, 2] S_
  bcast_S_S26x100000 : S_.BroadcastsInDim S26x100000 (![] : Fin 0 → Fin S26x100000.rank)
  reducesTo_S26x100000_S_d0_1 : S26x100000.ReducesTo [0, 1] S_
  bcast_S_S845x1024 : S_.BroadcastsInDim S845x1024 (![] : Fin 0 → Fin S845x1024.rank)
  reducesTo_S845x1024_S_d0_1 : S845x1024.ReducesTo [0, 1] S_
  bcast_S_S1024 : S_.BroadcastsInDim S1024 (![] : Fin 0 → Fin S1024.rank)
  reducesTo_S1024_S_d0 : S1024.ReducesTo [0] S_
  bcast_S_S1024x512 : S_.BroadcastsInDim S1024x512 (![] : Fin 0 → Fin S1024x512.rank)
  reducesTo_S1024x512_S_d0_1 : S1024x512.ReducesTo [0, 1] S_
  bcast_S_S512 : S_.BroadcastsInDim S512 (![] : Fin 0 → Fin S512.rank)
  reducesTo_S512_S_d0 : S512.ReducesTo [0] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg8 : FVec F S512x256 .f32) (main_arg9 : FVec F S256 .f32) (main_arg10 : FVec F S256x1 .f32) (main_arg11 : FVec F S1 .f32) (main_v33 : IVec S_ 1) : IVec S_ 1 :=
  let main_v34 : FVec F S512x256 .f32 := Host.absf main_arg8
  let main_cst_12 : FVec F S_ .f32 := constant S_ .f32 0x7F800000#32
  let main_v35 : FVec F S512x256 .f32 := broadcastInDim S512x256 ![] bcast_S_S512x256 main_cst_12
  let main_v36 : IVec S512x256 1 := cmpf .olt main_v34 main_v35
  let main_c_13 : IVec S_ 1 := constantI S_ 1 1#1
  let main_v37 : IVec S_ 1 := (fun x v => Host.reduce IntOp.andi x v reducesTo_S512x256_S_d0_1 h_S_) main_v36 main_c_13
  let main_v38 : IVec S_ 1 := andi main_v33 main_v37
  let main_v39 : FVec F S256 .f32 := Host.absf main_arg9
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x1 .f32 := Host.absf main_arg10
  let main_cst_16 : FVec F S_ .f32 := constant S_ .f32 0x7F800000#32
  let main_v45 : FVec F S256x1 .f32 := broadcastInDim S256x1 ![] bcast_S_S256x1 main_cst_16
  let main_v46 : IVec S256x1 1 := cmpf .olt main_v44 main_v45
  let main_c_17 : IVec S_ 1 := constantI S_ 1 1#1
  let main_v47 : IVec S_ 1 := (fun x v => Host.reduce IntOp.andi x v reducesTo_S256x1_S_d0_1 h_S_) main_v46 main_c_17
  let main_v48 : IVec S_ 1 := andi main_v43 main_v47
  let main_v49 : FVec F S1 .f32 := Host.absf main_arg11
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg5 : FVec F S1024 .f32) (main_arg6 : FVec F S1024x512 .f32) (main_arg7 : FVec F S512 .f32) (main_arg8 : FVec F S512x256 .f32) (main_arg9 : FVec F S256 .f32) (main_arg10 : FVec F S256x1 .f32) (main_arg11 : FVec F S1 .f32) (main_v13 : IVec S_ 1) (main_v16 : IVec S845x1024 1) : IVec S_ 1 :=
  let main_c_5 : IVec S_ 1 := constantI S_ 1 1#1
  let main_v17 : IVec S_ 1 := (fun x v => Host.reduce IntOp.andi x v reducesTo_S845x1024_S_d0_1 h_S_) main_v16 main_c_5
  let main_v18 : IVec S_ 1 := andi main_v13 main_v17
  let main_v19 : FVec F S1024 .f32 := Host.absf main_arg5
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x512 .f32 := Host.absf main_arg6
  let main_cst_8 : FVec F S_ .f32 := constant S_ .f32 0x7F800000#32
  let main_v25 : FVec F S1024x512 .f32 := broadcastInDim S1024x512 ![] bcast_S_S1024x512 main_cst_8
  let main_v26 : IVec S1024x512 1 := cmpf .olt main_v24 main_v25
  let main_c_9 : IVec S_ 1 := constantI S_ 1 1#1
  let main_v27 : IVec S_ 1 := (fun x v => Host.reduce IntOp.andi x v reducesTo_S1024x512_S_d0_1 h_S_) main_v26 main_c_9
  let main_v28 : IVec S_ 1 := andi main_v23 main_v27
  let main_v29 : FVec F S512 .f32 := Host.absf main_arg7
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg8 main_arg9 main_arg10 main_arg11 main_v33

def fn {F : FTy → Type} [FloatOps F] (main_arg0 : IVec S16384x26 32) (main_arg1 : FVec F S16384x13 .f32) (main_arg2 : FVec F S26x100000x32 .f32) (main_arg3 : FVec F S26x100000 .f32) (main_arg4 : FVec F S845x1024 .f32) (main_arg5 : FVec F S1024 .f32) (main_arg6 : FVec F S1024x512 .f32) (main_arg7 : FVec F S512 .f32) (main_arg8 : FVec F S512x256 .f32) (main_arg9 : FVec F S256 .f32) (main_arg10 : FVec F S256x1 .f32) (main_arg11 : FVec F S1 .f32) : IVec S_ 1 :=
  let main_v0 : FVec F S16384x13 .f32 := Host.absf main_arg1
  let main_cst : FVec F S_ .f32 := constant S_ .f32 0x7F800000#32
  let main_v1 : FVec F S16384x13 .f32 := broadcastInDim S16384x13 ![] bcast_S_S16384x13 main_cst
  let main_v2 : IVec S16384x13 1 := cmpf .olt main_v0 main_v1
  let main_c : IVec S_ 1 := constantI S_ 1 1#1
  let main_v3 : IVec S_ 1 := (fun x v => Host.reduce IntOp.andi x v reducesTo_S16384x13_S_d0_1 h_S_) main_v2 main_c
  let main_v4 : FVec F S26x100000x32 .f32 := Host.absf main_arg2
  let main_cst_0 : FVec F S_ .f32 := constant S_ .f32 0x7F800000#32
  let main_v5 : FVec F S26x100000x32 .f32 := broadcastInDim S26x100000x32 ![] bcast_S_S26x100000x32 main_cst_0
  let main_v6 : IVec S26x100000x32 1 := cmpf .olt main_v4 main_v5
  let main_c_1 : IVec S_ 1 := constantI S_ 1 1#1
  let main_v7 : IVec S_ 1 := (fun x v => Host.reduce IntOp.andi x v reducesTo_S26x100000x32_S_d0_1_2 h_S_) main_v6 main_c_1
  let main_v8 : IVec S_ 1 := andi main_v3 main_v7
  let main_v9 : FVec F S26x100000 .f32 := Host.absf main_arg3
  let main_cst_2 : FVec F S_ .f32 := constant S_ .f32 0x7F800000#32
  let main_v10 : FVec F S26x100000 .f32 := broadcastInDim S26x100000 ![] bcast_S_S26x100000 main_cst_2
  let main_v11 : IVec S26x100000 1 := cmpf .olt main_v9 main_v10
  let main_c_3 : IVec S_ 1 := constantI S_ 1 1#1
  let main_v12 : IVec S_ 1 := (fun x v => Host.reduce IntOp.andi x v reducesTo_S26x100000_S_d0_1 h_S_) main_v11 main_c_3
  let main_v13 : IVec S_ 1 := andi main_v8 main_v12
  let main_v14 : FVec F S845x1024 .f32 := Host.absf main_arg4
  let main_cst_4 : FVec F S_ .f32 := constant S_ .f32 0x7F800000#32
  let main_v15 : FVec F S845x1024 .f32 := broadcastInDim S845x1024 ![] bcast_S_S845x1024 main_cst_4
  let main_v16 : IVec S845x1024 1 := cmpf .olt main_v14 main_v15
  fn_part1 (F := F) main_arg5 main_arg6 main_arg7 main_arg8 main_arg9 main_arg10 main_arg11 main_v13 main_v16
-- ==== Kernel.lean ====
abbrev S16384x26 : Shape := ⟨2, ![16384, 26]⟩
abbrev S16384x13 : Shape := ⟨2, ![16384, 13]⟩
abbrev S26x100000x32 : Shape := ⟨3, ![26, 100000, 32]⟩
abbrev S26x100000 : Shape := ⟨2, ![26, 100000]⟩
abbrev S845x1024 : Shape := ⟨2, ![845, 1024]⟩
abbrev S1024 : Shape := ⟨1, ![1024]⟩
abbrev S1024x512 : Shape := ⟨2, ![1024, 512]⟩
abbrev S512 : Shape := ⟨1, ![512]⟩
abbrev S512x256 : Shape := ⟨2, ![512, 256]⟩
abbrev S256 : Shape := ⟨1, ![256]⟩
abbrev S256x1 : Shape := ⟨2, ![256, 1]⟩
abbrev S1 : Shape := ⟨1, ![1]⟩
abbrev S26 : Shape := ⟨1, ![26]⟩
abbrev S1x26 : Shape := ⟨2, ![1, 26]⟩
abbrev S_ : Shape := ⟨0, ![]⟩
abbrev S16384x26x1 : Shape := ⟨3, ![16384, 26, 1]⟩
abbrev S16384x26x2 : Shape := ⟨3, ![16384, 26, 2]⟩
abbrev S16384x26x32 : Shape := ⟨3, ![16384, 26, 32]⟩
abbrev S16384 : Shape := ⟨1, ![16384]⟩
abbrev S16384x1 : Shape := ⟨2, ![16384, 1]⟩
abbrev S16384x32 : Shape := ⟨2, ![16384, 32]⟩
abbrev S16384x832 : Shape := ⟨2, ![16384, 832]⟩
abbrev S16384x845 : Shape := ⟨2, ![16384, 845]⟩
abbrev S2048x845 : Shape := ⟨2, ![2048, 845]⟩
abbrev S2048x1 : Shape := ⟨2, ![2048, 1]⟩
abbrev S2048x1024 : Shape := ⟨2, ![2048, 1024]⟩
abbrev S1x1024 : Shape := ⟨2, ![1, 1024]⟩
abbrev S2048x512 : Shape := ⟨2, ![2048, 512]⟩
abbrev S1x512 : Shape := ⟨2, ![1, 512]⟩
abbrev S2048x256 : Shape := ⟨2, ![2048, 256]⟩
abbrev S1x256 : Shape := ⟨2, ![1, 256]⟩
abbrev S1x1 : Shape := ⟨2, ![1, 1]⟩

abbrev nBuf : Space → Nat
  | .hbm => 77
  | .vmem => 16
  | .smem => 0
  | _ => 0

abbrev bufTy : (tb : Table) → Fin (tcTables nBuf tb) → BufTy
  | .hbm, ⟨0, _⟩ => ⟨S16384x26, .i32⟩
  | .hbm, ⟨1, _⟩ => ⟨S16384x13, .f32⟩
  | .hbm, ⟨2, _⟩ => ⟨S26x100000x32, .f32⟩
  | .hbm, ⟨3, _⟩ => ⟨S26x100000, .f32⟩
  | .hbm, ⟨4, _⟩ => ⟨S845x1024, .f32⟩
  | .hbm, ⟨5, _⟩ => ⟨S1024, .f32⟩
  | .hbm, ⟨6, _⟩ => ⟨S1024x512, .f32⟩
  | .hbm, ⟨7, _⟩ => ⟨S512, .f32⟩
  | .hbm, ⟨8, _⟩ => ⟨S512x256, .f32⟩
  | .hbm, ⟨9, _⟩ => ⟨S256, .f32⟩
  | .hbm, ⟨10, _⟩ => ⟨S256x1, .f32⟩
  | .hbm, ⟨11, _⟩ => ⟨S1, .f32⟩
  | .hbm, ⟨12, _⟩ => ⟨S26, .i32⟩
  | .hbm, ⟨13, _⟩ => ⟨S1x26, .i32⟩
  | .hbm, ⟨14, _⟩ => ⟨S_, .i32⟩
  | .hbm, ⟨15, _⟩ => ⟨S1x26, .i32⟩
  | .hbm, ⟨16, _⟩ => ⟨S1x26, .i1⟩
  | .hbm, ⟨17, _⟩ => ⟨S_, .i32⟩
  | .hbm, ⟨18, _⟩ => ⟨S1x26, .i32⟩
  | .hbm, ⟨19, _⟩ => ⟨S1x26, .i32⟩
  | .hbm, ⟨20, _⟩ => ⟨S1x26, .i32⟩
  | .hbm, ⟨21, _⟩ => ⟨S_, .i32⟩
  | .hbm, ⟨22, _⟩ => ⟨S16384x26, .i32⟩
  | .hbm, ⟨23, _⟩ => ⟨S16384x26, .i1⟩
  | .hbm, ⟨24, _⟩ => ⟨S_, .i32⟩
  | .hbm, ⟨25, _⟩ => ⟨S16384x26, .i32⟩
  | .hbm, ⟨26, _⟩ => ⟨S16384x26, .i32⟩
  | .hbm, ⟨27, _⟩ => ⟨S16384x26, .i32⟩
  | .hbm, ⟨28, _⟩ => ⟨S16384x26, .i32⟩
  | .hbm, ⟨29, _⟩ => ⟨S16384x26x1, .i32⟩
  | .hbm, ⟨30, _⟩ => ⟨S16384x26x1, .i32⟩
  | .hbm, ⟨31, _⟩ => ⟨S16384x26x2, .i32⟩
  | .hbm, ⟨32, _⟩ => ⟨S16384x26x32, .f32⟩
  | .hbm, ⟨33, _⟩ => ⟨S_, .i32⟩
  | .hbm, ⟨34, _⟩ => ⟨S1x26, .i32⟩
  | .hbm, ⟨35, _⟩ => ⟨S1x26, .i1⟩
  | .hbm, ⟨36, _⟩ => ⟨S_, .i32⟩
  | .hbm, ⟨37, _⟩ => ⟨S1x26, .i32⟩
  | .hbm, ⟨38, _⟩ => ⟨S1x26, .i32⟩
  | .hbm, ⟨39, _⟩ => ⟨S1x26, .i32⟩
  | .hbm, ⟨40, _⟩ => ⟨S_, .i32⟩
  | .hbm, ⟨41, _⟩ => ⟨S16384x26, .i32⟩
  | .hbm, ⟨42, _⟩ => ⟨S16384x26, .i1⟩
  | .hbm, ⟨43, _⟩ => ⟨S_, .i32⟩
  | .hbm, ⟨44, _⟩ => ⟨S16384x26, .i32⟩
  | .hbm, ⟨45, _⟩ => ⟨S16384x26, .i32⟩
  | .hbm, ⟨46, _⟩ => ⟨S16384x26, .i32⟩
  | .hbm, ⟨47, _⟩ => ⟨S16384x26, .i32⟩
  | .hbm, ⟨48, _⟩ => ⟨S16384x26x1, .i32⟩
  | .hbm, ⟨49, _⟩ => ⟨S16384x26x1, .i32⟩
  | .hbm, ⟨50, _⟩ => ⟨S16384x26x2, .i32⟩
  | .hbm, ⟨51, _⟩ => ⟨S16384x26, .f32⟩
  | .hbm, ⟨52, _⟩ => ⟨S_, .f32⟩
  | .hbm, ⟨53, _⟩ => ⟨S16384, .f32⟩
  | .hbm, ⟨54, _⟩ => ⟨S16384x1, .f32⟩
  | .hbm, ⟨55, _⟩ => ⟨S_, .f32⟩
  | .hbm, ⟨56, _⟩ => ⟨S16384x32, .f32⟩
  | .hbm, ⟨57, _⟩ => ⟨S16384x26x32, .f32⟩
  | .hbm, ⟨58, _⟩ => ⟨S_, .f32⟩
  | .hbm, ⟨59, _⟩ => ⟨S16384, .f32⟩
  | .hbm, ⟨60, _⟩ => ⟨S16384x32, .f32⟩
  | .hbm, ⟨61, _⟩ => ⟨S_, .f32⟩
  | .hbm, ⟨62, _⟩ => ⟨S16384, .f32⟩
  | .hbm, ⟨63, _⟩ => ⟨S16384, .f32⟩
  | .hbm, ⟨64, _⟩ => ⟨S_, .f32⟩
  | .hbm, ⟨65, _⟩ => ⟨S16384, .f32⟩
  | .hbm, ⟨66, _⟩ => ⟨S16384, .f32⟩
  | .hbm, ⟨67, _⟩ => ⟨S16384x1, .f32⟩
  | .hbm, ⟨68, _⟩ => ⟨S16384x832, .f32⟩
  | .hbm, ⟨69, _⟩ => ⟨S16384x845, .f32⟩
  | .hbm, ⟨70, _⟩ => ⟨S16384x845, .bf16⟩
  | .hbm, ⟨71, _⟩ => ⟨S845x1024, .bf16⟩
  | .hbm, ⟨72, _⟩ => ⟨S1024x512, .bf16⟩
  | .hbm, ⟨73, _⟩ => ⟨S512x256, .bf16⟩
  | .hbm, ⟨74, _⟩ => ⟨S256x1, .bf16⟩
  | .hbm, ⟨75, _⟩ => ⟨S16384x1, .f32⟩
  | .hbm, ⟨76, _⟩ => ⟨S16384, .f32⟩
  | .local _ .vmem, ⟨0, _⟩ => ⟨S2048x845, .bf16⟩
  | .local _ .vmem, ⟨1, _⟩ => ⟨S2048x845, .bf16⟩
  | .local _ .vmem, ⟨2, _⟩ => ⟨S2048x1, .f32⟩
  | .local _ .vmem, ⟨3, _⟩ => ⟨S2048x1, .f32⟩
  | .local _ .vmem, ⟨4, _⟩ => ⟨S2048x1, .f32⟩
  | .local _ .vmem, ⟨5, _⟩ => ⟨S2048x1, .f32⟩
  | .local _ .vmem, ⟨6, _⟩ => ⟨S845x1024, .bf16⟩
  | .local _ .vmem, ⟨7, _⟩ => ⟨S1024, .f32⟩
  | .local _ .vmem, ⟨8, _⟩ => ⟨S1024x512, .bf16⟩
  | .local _ .vmem, ⟨9, _⟩ => ⟨S512, .f32⟩
  | .local _ .vmem, ⟨10, _⟩ => ⟨S512x256, .bf16⟩
  | .local _ .vmem, ⟨11, _⟩ => ⟨S256, .f32⟩
  | .local _ .vmem, ⟨12, _⟩ => ⟨S256x1, .bf16⟩
  | .local _ .vmem, ⟨13, _⟩ => ⟨S1, .f32⟩
  | .local _ .vmem, ⟨14, _⟩ => ⟨S2048x1, .f32⟩
  | .local _ .vmem, ⟨15, _⟩ => ⟨S2048x1, .f32⟩
  | _, _ => ⟨S16384x26, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_c : Ref sig .tc := ⟨.hbm, 14, rfl⟩
abbrev main_v2 : Ref sig .tc := ⟨.hbm, 15, rfl⟩
abbrev main_v3 : Ref sig .tc := ⟨.hbm, 16, rfl⟩
abbrev main_c_0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_c_1 : Ref sig .tc := ⟨.hbm, 21, rfl⟩
abbrev main_v7 : Ref sig .tc := ⟨.hbm, 22, rfl⟩
abbrev main_v8 : Ref sig .tc := ⟨.hbm, 23, rfl⟩
abbrev main_c_2 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_c_4 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_5 : Ref sig .tc := ⟨.hbm, 40, rfl⟩
abbrev main_v22 : Ref sig .tc := ⟨.hbm, 41, rfl⟩
abbrev main_v23 : Ref sig .tc := ⟨.hbm, 42, rfl⟩
abbrev main_c_6 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst : Ref sig .tc := ⟨.hbm, 52, rfl⟩
abbrev main_v32 : Ref sig .tc := ⟨.hbm, 53, rfl⟩
abbrev main_v33 : Ref sig .tc := ⟨.hbm, 54, rfl⟩
abbrev main_cst_7 : Ref sig .tc := ⟨.hbm, 55, rfl⟩
abbrev main_v34 : Ref sig .tc := ⟨.hbm, 56, rfl⟩
abbrev main_v35 : Ref sig .tc := ⟨.hbm, 57, rfl⟩
abbrev main_cst_8 : Ref sig .tc := ⟨.hbm, 58, rfl⟩
abbrev main_v36 : Ref sig .tc := ⟨.hbm, 59, rfl⟩
abbrev main_v37 : Ref sig .tc := ⟨.hbm, 60, rfl⟩
abbrev main_cst_9 : Ref sig .tc := ⟨.hbm, 61, rfl⟩
abbrev main_v38 : Ref sig .tc := ⟨.hbm, 62, rfl⟩
abbrev main_v39 : Ref sig .tc := ⟨.hbm, 63, rfl⟩
abbrev main_cst_10 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x845 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S845x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x1 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S2048x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  bcast_S26_S1x26_1 : S26.BroadcastsInDim S1x26 (![1] : Fin 1 → Fin S1x26.rank)
  bcast_S_S1x26 : S_.BroadcastsInDim S1x26 (![] : Fin 0 → Fin S1x26.rank)
  bcast_S_S16384x26 : S_.BroadcastsInDim S16384x26 (![] : Fin 0 → Fin S16384x26.rank)
  bcast_S1x26_S16384x26_0_1 : S1x26.BroadcastsInDim S16384x26 (![0, 1] : Fin 2 → Fin S16384x26.rank)
  bcast_S16384x26_S16384x26x1_0_1 : S16384x26.BroadcastsInDim S16384x26x1 (![0, 1] : Fin 2 → Fin S16384x26x1.rank)
  concatenates_S16384x26x1_S16384x26x1_S16384x26x2_d2 : Shape.Concatenates [S16384x26x1, S16384x26x1] S16384x26x2 2
  reducesTo_S16384x26_S16384_d1 : S16384x26.ReducesTo [1] S16384
  h_S_ : 0 < S_.numel
  bcast_S16384_S16384x1_0 : S16384.BroadcastsInDim S16384x1 (![0] : Fin 1 → Fin S16384x1.rank)
  reducesTo_S16384x26x32_S16384x32_d1 : S16384x26x32.ReducesTo [1] S16384x32
  reducesTo_S16384x26x32_S16384_d1_2 : S16384x26x32.ReducesTo [1, 2] S16384
  reducesTo_S16384x32_S16384_d1 : S16384x32.ReducesTo [1] S16384
  bcast_S_S16384 : S_.BroadcastsInDim S16384 (![] : Fin 0 → Fin S16384.rank)
  shapeCasts_S16384x26x32_S16384x832 : S16384x26x32.ShapeCasts S16384x832
  concatenates_S16384x832_S16384x13_S16384x845_d1 : Shape.Concatenates [S16384x832, S16384x13] S16384x845 1
  bitsLt_bf16_f32 : FTy.bits .bf16 < FTy.bits .f32
  inb_S2048x845_S2048x845_0_0 : ∀ a, (![0, 0] : Fin 2 → Nat) a + S2048x845.size a ≤ S2048x845.size a
  h_S2048x845 : 0 < S2048x845.numel
  shapeCasts_S2048x845_S2048x845 : S2048x845.ShapeCasts S2048x845
  inb_S845x1024_S845x1024_0_0 : ∀ a, (![0, 0] : Fin 2 → Nat) a + S845x1024.size a ≤ S845x1024.size a
  h_S845x1024 : 0 < S845x1024.numel
  shapeCasts_S845x1024_S845x1024 : S845x1024.ShapeCasts S845x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S2048x1024 : S1x1024.Broadcasts S2048x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S512_S512_0 : ∀ a, (![0] : Fin 1 → Nat) a + S512.size a ≤ S512.size a
  h_S512 : 0 < S512.numel
  shapeCasts_S512_S1x512 : S512.ShapeCasts S1x512
  broadcasts_S1x512_S2048x512 : S1x512.Broadcasts S2048x512
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S256_S256_0 : ∀ a, (![0] : Fin 1 → Nat) a + S256.size a ≤ S256.size a
  h_S256 : 0 < S256.numel
  shapeCasts_S256_S1x256 : S256.ShapeCasts S1x256
  broadcasts_S1x256_S2048x256 : S1x256.Broadcasts S2048x256
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S1_S1_0 : ∀ a, (![0] : Fin 1 → Nat) a + S1.size a ≤ S1.size a
  h_S1 : 0 < S1.numel
  shapeCasts_S1_S1x1 : S1.ShapeCasts S1x1
  broadcasts_S1x1_S2048x1 : S1x1.Broadcasts S2048x1
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  shapeCasts_S16384x1_S16384 : S16384x1.ShapeCasts S16384
  gather_S26x100000x32_S16384x26x2_S16384x26x32_2_01_n_n_01_2_1132_wf : GatherDims.WF S26x100000x32 S16384x26x2 S16384x26x32 [2] [0, 1] [] [0, 1] [] 2 ![1, 1, 32]
  gather_S26x100000_S16384x26x2_S16384x26_n_01_n_n_01_2_11_wf : GatherDims.WF S26x100000 S16384x26x2 S16384x26 [] [0, 1] [] [0, 1] [] 2 ![1, 1]
  dot_S2048x845_S845x1024_S2048x1024_1_0_0_1_n_n_wf : DotDims.WF S2048x845 S845x1024 S2048x1024 [1] [0] [0] [1] [] []
  dot_S2048x1024_S1024x512_S2048x512_1_0_0_1_n_n_wf : DotDims.WF S2048x1024 S1024x512 S2048x512 [1] [0] [0] [1] [] []
  dot_S2048x512_S512x256_S2048x256_1_0_0_1_n_n_wf : DotDims.WF S2048x512 S512x256 S2048x256 [1] [0] [0] [1] [] []
  dot_S2048x256_S256x1_S2048x1_1_0_0_1_n_n_wf : DotDims.WF S2048x256 S256x1 S2048x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x845.size a ≤ S16384x845.size a
  hwx0_0 : ∀ i : grid0.Coords, EltTy.bits .bf16 = 32 ∨ (Rect.block (s := S16384x845) S2048x845.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1.size a ≤ S16384x1.size a
  hwx0_1 : ∀ i : grid0.Coords, EltTy.bits .f32 = 32 ∨ (Rect.block (s := S16384x1) S2048x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1.size a ≤ S16384x1.size a
  hwx0_2 : ∀ i : grid0.Coords, EltTy.bits .f32 = 32 ∨ (Rect.block (s := S16384x1) S2048x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S845x1024.size a ≤ S845x1024.size a
  hwx0_3 : ∀ i : grid0.Coords, EltTy.bits .bf16 = 32 ∨ (Rect.block (s := S845x1024) S845x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024.size a ≤ S1024.size a
  hwx0_4 : ∀ i : grid0.Coords, EltTy.bits .f32 = 32 ∨ (Rect.block (s := S1024) S1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x512.size a ≤ S1024x512.size a
  hwx0_5 : ∀ i : grid0.Coords, EltTy.bits .bf16 = 32 ∨ (Rect.block (s := S1024x512) S1024x512.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512.size a ≤ S512.size a
  hwx0_6 : ∀ i : grid0.Coords, EltTy.bits .f32 = 32 ∨ (Rect.block (s := S512) S512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512x256.size a ≤ S512x256.size a
  hwx0_7 : ∀ i : grid0.Coords, EltTy.bits .bf16 = 32 ∨ (Rect.block (s := S512x256) S512x256.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256.size a ≤ S256.size a
  hwx0_8 : ∀ i : grid0.Coords, EltTy.bits .f32 = 32 ∨ (Rect.block (s := S256) S256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256x1.size a ≤ S256x1.size a
  hwx0_9 : ∀ i : grid0.Coords, EltTy.bits .bf16 = 32 ∨ (Rect.block (s := S256x1) S256x1.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1.size a ≤ S1.size a
  hwx0_10 : ∀ i : grid0.Coords, EltTy.bits .f32 = 32 ∨ (Rect.block (s := S1) S1.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S2048x1.size a ≤ S16384x1.size a
  hwx0_11 : ∀ i : grid0.Coords, EltTy.bits .f32 = 32 ∨ (Rect.block (s := S16384x1) S2048x1.size (cc0_transform_11 i) (hinb0_11 i)).WholeWords (EltTy.packing .f32)

variable [Facts₀]

def gather_S26x100000x32_S16384x26x2_S16384x26x32_2_01_n_n_01_2_1132 : GatherDims S26x100000x32 S16384x26x2 S16384x26x32 where
  offsetDims := [2]
  collapsedSliceDims := [0, 1]
  operandBatchingDims := []
  startIndicesBatchingDims := []
  startIndexMap := [0, 1]
  indexVectorDim := 2
  sliceSizes := ![1, 1, 32]
  wf := gather_S26x100000x32_S16384x26x2_S16384x26x32_2_01_n_n_01_2_1132_wf
def gather_S26x100000_S16384x26x2_S16384x26_n_01_n_n_01_2_11 : GatherDims S26x100000 S16384x26x2 S16384x26 where
  offsetDims := []
  collapsedSliceDims := [0, 1]
  operandBatchingDims := []
  startIndicesBatchingDims := []
  startIndexMap := [0, 1]
  indexVectorDim := 2
  sliceSizes := ![1, 1]
  wf := gather_S26x100000_S16384x26x2_S16384x26_n_01_n_n_01_2_11_wf
def dot_S2048x845_S845x1024_S2048x1024_1_0_0_1_n_n : DotDims S2048x845 S845x1024 S2048x1024 where
  lhsContracting := [1]
  rhsContracting := [0]
  lhsNonContracting := [0]
  rhsNonContracting := [1]
  lhsBatch := []
  rhsBatch := []
  wf := dot_S2048x845_S845x1024_S2048x1024_1_0_0_1_n_n_wf
def dot_S2048x1024_S1024x512_S2048x512_1_0_0_1_n_n : DotDims S2048x1024 S1024x512 S2048x512 where
  lhsContracting := [1]
  rhsContracting := [0]
  lhsNonContracting := [0]
  rhsNonContracting := [1]
  lhsBatch := []
  rhsBatch := []
  wf := dot_S2048x1024_S1024x512_S2048x512_1_0_0_1_n_n_wf
def dot_S2048x512_S512x256_S2048x256_1_0_0_1_n_n : DotDims S2048x512 S512x256 S2048x256 where
  lhsContracting := [1]
  rhsContracting := [0]
  lhsNonContracting := [0]
  rhsNonContracting := [1]
  lhsBatch := []
  rhsBatch := []
  wf := dot_S2048x512_S512x256_S2048x256_1_0_0_1_n_n_wf
def dot_S2048x256_S256x1_S2048x1_1_0_0_1_n_n : DotDims S2048x256 S256x1 S2048x1 where
  lhsContracting := [1]
  rhsContracting := [0]
  lhsNonContracting := [0]
  rhsNonContracting := [1]
  lhsBatch := []
  rhsBatch := []
  wf := dot_S2048x256_S256x1_S2048x1_1_0_0_1_n_n_wf

abbrev win0_0 : Pipeline.Window sig grid0 :=
  Pipeline.Window.ofSpec (Memref.whole main_v45) S2048x845.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v42) S2048x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v33) S2048x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v46) S845x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v47) S1024x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v48) S512x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg9) S256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v49) S256x1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg11) S1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v50) S2048x1.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S16384x26 : Shape := ⟨2, ![16384, 26]⟩
abbrev S16384x13 : Shape := ⟨2, ![16384, 13]⟩
abbrev S26x100000x32 : Shape := ⟨3, ![26, 100000, 32]⟩
abbrev S26x100000 : Shape := ⟨2, ![26, 100000]⟩
abbrev S845x1024 : Shape := ⟨2, ![845, 1024]⟩
abbrev S1024 : Shape := ⟨1, ![1024]⟩
abbrev S1024x512 : Shape := ⟨2, ![1024, 512]⟩
abbrev S512 : Shape := ⟨1, ![512]⟩
abbrev S512x256 : Shape := ⟨2, ![512, 256]⟩
abbrev S256 : Shape := ⟨1, ![256]⟩
abbrev S256x1 : Shape := ⟨2, ![256, 1]⟩
abbrev S1 : Shape := ⟨1, ![1]⟩
abbrev S26 : Shape := ⟨1, ![26]⟩
abbrev S1x26 : Shape := ⟨2, ![1, 26]⟩
abbrev S_ : Shape := ⟨0, ![]⟩
abbrev S16384x26x1 : Shape := ⟨3, ![16384, 26, 1]⟩
abbrev S16384x26x2 : Shape := ⟨3, ![16384, 26, 2]⟩
abbrev S16384x26x32 : Shape := ⟨3, ![16384, 26, 32]⟩
abbrev S16384 : Shape := ⟨1, ![16384]⟩
abbrev S16384x32 : Shape := ⟨2, ![16384, 32]⟩
abbrev S16384x832 : Shape := ⟨2, ![16384, 832]⟩
abbrev S16384x845 : Shape := ⟨2, ![16384, 845]⟩
abbrev S16384x1024 : Shape := ⟨2, ![16384, 1024]⟩
abbrev S1x1024 : Shape := ⟨2, ![1, 1024]⟩
abbrev S16384x512 : Shape := ⟨2, ![16384, 512]⟩
abbrev S1x512 : Shape := ⟨2, ![1, 512]⟩
abbrev S16384x256 : Shape := ⟨2, ![16384, 256]⟩
abbrev S1x256 : Shape := ⟨2, ![1, 256]⟩
abbrev S16384x1 : Shape := ⟨2, ![16384, 1]⟩
abbrev S1x1 : Shape := ⟨2, ![1, 1]⟩

abbrev nBuf : Space → Nat
  | .hbm => 104
  | .vmem => 0
  | .smem => 0
  | _ => 0

abbrev bufTy : (tb : Table) → Fin (tcTables nBuf tb) → BufTy
  | .hbm, ⟨0, _⟩ => ⟨S16384x26, .i32⟩
  | .hbm, ⟨1, _⟩ => ⟨S16384x13, .f32⟩
  | .hbm, ⟨2, _⟩ => ⟨S26x100000x32, .f32⟩
  | .hbm, ⟨3, _⟩ => ⟨S26x100000, .f32⟩
  | .hbm, ⟨4, _⟩ => ⟨S845x1024, .f32⟩
  | .hbm, ⟨5, _⟩ => ⟨S1024, .f32⟩
  | .hbm, ⟨6, _⟩ => ⟨S1024x512, .f32⟩
  | .hbm, ⟨7, _⟩ => ⟨S512, .f32⟩
  | .hbm, ⟨8, _⟩ => ⟨S512x256, .f32⟩
  | .hbm, ⟨9, _⟩ => ⟨S256, .f32⟩
  | .hbm, ⟨10, _⟩ => ⟨S256x1, .f32⟩
  | .hbm, ⟨11, _⟩ => ⟨S1, .f32⟩
  | .hbm, ⟨12, _⟩ => ⟨S26, .i32⟩
  | .hbm, ⟨13, _⟩ => ⟨S1x26, .i32⟩
  | .hbm, ⟨14, _⟩ => ⟨S_, .i32⟩
  | .hbm, ⟨15, _⟩ => ⟨S1x26, .i32⟩
  | .hbm, ⟨16, _⟩ => ⟨S1x26, .i1⟩
  | .hbm, ⟨17, _⟩ => ⟨S_, .i32⟩
  | .hbm, ⟨18, _⟩ => ⟨S1x26, .i32⟩
  | .hbm, ⟨19, _⟩ => ⟨S1x26, .i32⟩
  | .hbm, ⟨20, _⟩ => ⟨S1x26, .i32⟩
  | .hbm, ⟨21, _⟩ => ⟨S_, .i32⟩
  | .hbm, ⟨22, _⟩ => ⟨S16384x26, .i32⟩
  | .hbm, ⟨23, _⟩ => ⟨S16384x26, .i1⟩
  | .hbm, ⟨24, _⟩ => ⟨S_, .i32⟩
  | .hbm, ⟨25, _⟩ => ⟨S16384x26, .i32⟩
  | .hbm, ⟨26, _⟩ => ⟨S16384x26, .i32⟩
  | .hbm, ⟨27, _⟩ => ⟨S16384x26, .i32⟩
  | .hbm, ⟨28, _⟩ => ⟨S16384x26, .i32⟩
  | .hbm, ⟨29, _⟩ => ⟨S16384x26x1, .i32⟩
  | .hbm, ⟨30, _⟩ => ⟨S16384x26x1, .i32⟩
  | .hbm, ⟨31, _⟩ => ⟨S16384x26x2, .i32⟩
  | .hbm, ⟨32, _⟩ => ⟨S16384x26x32, .f32⟩
  | .hbm, ⟨33, _⟩ => ⟨S_, .i32⟩
  | .hbm, ⟨34, _⟩ => ⟨S1x26, .i32⟩
  | .hbm, ⟨35, _⟩ => ⟨S1x26, .i1⟩
  | .hbm, ⟨36, _⟩ => ⟨S_, .i32⟩
  | .hbm, ⟨37, _⟩ => ⟨S1x26, .i32⟩
  | .hbm, ⟨38, _⟩ => ⟨S1x26, .i32⟩
  | .hbm, ⟨39, _⟩ => ⟨S1x26, .i32⟩
  | .hbm, ⟨40, _⟩ => ⟨S_, .i32⟩
  | .hbm, ⟨41, _⟩ => ⟨S16384x26, .i32⟩
  | .hbm, ⟨42, _⟩ => ⟨S16384x26, .i1⟩
  | .hbm, ⟨43, _⟩ => ⟨S_, .i32⟩
  | .hbm, ⟨44, _⟩ => ⟨S16384x26, .i32⟩
  | .hbm, ⟨45, _⟩ => ⟨S16384x26, .i32⟩
  | .hbm, ⟨46, _⟩ => ⟨S16384x26, .i32⟩
  | .hbm, ⟨47, _⟩ => ⟨S16384x26, .i32⟩
  | .hbm, ⟨48, _⟩ => ⟨S16384x26x1, .i32⟩
  | .hbm, ⟨49, _⟩ => ⟨S16384x26x1, .i32⟩
  | .hbm, ⟨50, _⟩ => ⟨S16384x26x2, .i32⟩
  | .hbm, ⟨51, _⟩ => ⟨S16384x26, .f32⟩
  | .hbm, ⟨52, _⟩ => ⟨S_, .f32⟩
  | .hbm, ⟨53, _⟩ => ⟨S16384, .f32⟩
  | .hbm, ⟨54, _⟩ => ⟨S_, .f32⟩
  | .hbm, ⟨55, _⟩ => ⟨S16384x32, .f32⟩
  | .hbm, ⟨56, _⟩ => ⟨S16384x32, .f32⟩
  | .hbm, ⟨57, _⟩ => ⟨S_, .f32⟩
  | .hbm, ⟨58, _⟩ => ⟨S16384, .f32⟩
  | .hbm, ⟨59, _⟩ => ⟨S16384x26x32, .f32⟩
  | .hbm, ⟨60, _⟩ => ⟨S_, .f32⟩
  | .hbm, ⟨61, _⟩ => ⟨S16384, .f32⟩
  | .hbm, ⟨62, _⟩ => ⟨S16384, .f32⟩
  | .hbm, ⟨63, _⟩ => ⟨S_, .f32⟩
  | .hbm, ⟨64, _⟩ => ⟨S16384, .f32⟩
  | .hbm, ⟨65, _⟩ => ⟨S16384, .f32⟩
  | .hbm, ⟨66, _⟩ => ⟨S16384x832, .f32⟩
  | .hbm, ⟨67, _⟩ => ⟨S16384x845, .f32⟩
  | .hbm, ⟨68, _⟩ => ⟨S16384x1024, .f32⟩
  | .hbm, ⟨69, _⟩ => ⟨S1x1024, .f32⟩
  | .hbm, ⟨70, _⟩ => ⟨S16384x1024, .f32⟩
  | .hbm, ⟨71, _⟩ => ⟨S16384x1024, .f32⟩
  | .hbm, ⟨72, _⟩ => ⟨S_, .f32⟩
  | .hbm, ⟨73, _⟩ => ⟨S16384x1024, .f32⟩
  | .hbm, ⟨74, _⟩ => ⟨S16384x1024, .f32⟩
  | .hbm, ⟨75, _⟩ => ⟨S16384x512, .f32⟩
  | .hbm, ⟨76, _⟩ => ⟨S1x512, .f32⟩
  | .hbm, ⟨77, _⟩ => ⟨S16384x512, .f32⟩
  | .hbm, ⟨78, _⟩ => ⟨S16384x512, .f32⟩
  | .hbm, ⟨79, _⟩ => ⟨S_, .f32⟩
  | .hbm, ⟨80, _⟩ => ⟨S16384x512, .f32⟩
  | .hbm, ⟨81, _⟩ => ⟨S16384x512, .f32⟩
  | .hbm, ⟨82, _⟩ => ⟨S16384x256, .f32⟩
  | .hbm, ⟨83, _⟩ => ⟨S1x256, .f32⟩
  | .hbm, ⟨84, _⟩ => ⟨S16384x256, .f32⟩
  | .hbm, ⟨85, _⟩ => ⟨S16384x256, .f32⟩
  | .hbm, ⟨86, _⟩ => ⟨S_, .f32⟩
  | .hbm, ⟨87, _⟩ => ⟨S16384x256, .f32⟩
  | .hbm, ⟨88, _⟩ => ⟨S16384x256, .f32⟩
  | .hbm, ⟨89, _⟩ => ⟨S16384x1, .f32⟩
  | .hbm, ⟨90, _⟩ => ⟨S1x1, .f32⟩
  | .hbm, ⟨91, _⟩ => ⟨S16384x1, .f32⟩
  | .hbm, ⟨92, _⟩ => ⟨S16384x1, .f32⟩
  | .hbm, ⟨93, _⟩ => ⟨S16384, .f32⟩
  | .hbm, ⟨94, _⟩ => ⟨S16384, .f32⟩
  | .hbm, ⟨95, _⟩ => ⟨S16384, .f32⟩
  | .hbm, ⟨96, _⟩ => ⟨S16384, .f32⟩
  | .hbm, ⟨97, _⟩ => ⟨S16384, .f32⟩
  | .hbm, ⟨98, _⟩ => ⟨S_, .f32⟩
  | .hbm, ⟨99, _⟩ => ⟨S16384, .f32⟩
  | .hbm, ⟨100, _⟩ => ⟨S16384, .f32⟩
  | .hbm, ⟨101, _⟩ => ⟨S_, .f32⟩
  | .hbm, ⟨102, _⟩ => ⟨S16384, .f32⟩
  | .hbm, ⟨103, _⟩ => ⟨S16384, .f32⟩
  | _, _ => ⟨S16384x26, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_c : Ref sig .tc := ⟨.hbm, 14, rfl⟩
abbrev main_v2 : Ref sig .tc := ⟨.hbm, 15, rfl⟩
abbrev main_v3 : Ref sig .tc := ⟨.hbm, 16, rfl⟩
abbrev main_c_0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_c_1 : Ref sig .tc := ⟨.hbm, 21, rfl⟩
abbrev main_v7 : Ref sig .tc := ⟨.hbm, 22, rfl⟩
abbrev main_v8 : Ref sig .tc := ⟨.hbm, 23, rfl⟩
abbrev main_c_2 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_c_4 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_5 : Ref sig .tc := ⟨.hbm, 40, rfl⟩
abbrev main_v22 : Ref sig .tc := ⟨.hbm, 41, rfl⟩
abbrev main_v23 : Ref sig .tc := ⟨.hbm, 42, rfl⟩
abbrev main_c_6 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst : Ref sig .tc := ⟨.hbm, 52, rfl⟩
abbrev main_v32 : Ref sig .tc := ⟨.hbm, 53, rfl⟩
abbrev main_cst_7 : Ref sig .tc := ⟨.hbm, 54, rfl⟩
abbrev main_v33 : Ref sig .tc := ⟨.hbm, 55, rfl⟩
abbrev main_v34 : Ref sig .tc := ⟨.hbm, 56, rfl⟩
abbrev main_cst_8 : Ref sig .tc := ⟨.hbm, 57, rfl⟩
abbrev main_v35 : Ref sig .tc := ⟨.hbm, 58, rfl⟩
abbrev main_v36 : Ref sig .tc := ⟨.hbm, 59, rfl⟩
abbrev main_cst_9 : Ref sig .tc := ⟨.hbm, 60, rfl⟩
abbrev main_v37 : Ref sig .tc := ⟨.hbm, 61, rfl⟩
abbrev main_v38 : Ref sig .tc := ⟨.hbm, 62, rfl⟩
abbrev main_cst_10 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_call0_cst : Ref sig .tc := ⟨.hbm, 72, rfl⟩
abbrev main_call0_v0 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_call1_cst : Ref sig .tc := ⟨.hbm, 79, rfl⟩
abbrev main_call1_v0 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_call2_cst : Ref sig .tc := ⟨.hbm, 86, rfl⟩
abbrev main_call2_v0 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_cst_11 : Ref sig .tc := ⟨.hbm, 98, rfl⟩
abbrev main_v67 : Ref sig .tc := ⟨.hbm, 99, rfl⟩
abbrev main_v68 : Ref sig .tc := ⟨.hbm, 100, rfl⟩
abbrev main_cst_12 : Ref sig .tc := ⟨.hbm, 101, rfl⟩
abbrev main_v69 : Ref sig .tc := ⟨.hbm, 102, rfl⟩
abbrev main_v70 : Ref sig .tc := ⟨.hbm, 103, rfl⟩

abbrev nD : Nat := 1
abbrev τ : Topo := Topo.v7x

variable {F : FTy → Type} [FloatOps F]

class Facts₀ : Prop where
  bcast_S26_S1x26_1 : S26.BroadcastsInDim S1x26 (![1] : Fin 1 → Fin S1x26.rank)
  bcast_S_S1x26 : S_.BroadcastsInDim S1x26 (![] : Fin 0 → Fin S1x26.rank)
  bcast_S_S16384x26 : S_.BroadcastsInDim S16384x26 (![] : Fin 0 → Fin S16384x26.rank)
  bcast_S1x26_S16384x26_0_1 : S1x26.BroadcastsInDim S16384x26 (![0, 1] : Fin 2 → Fin S16384x26.rank)
  bcast_S16384x26_S16384x26x1_0_1 : S16384x26.BroadcastsInDim S16384x26x1 (![0, 1] : Fin 2 → Fin S16384x26x1.rank)
  concatenates_S16384x26x1_S16384x26x1_S16384x26x2_d2 : Shape.Concatenates [S16384x26x1, S16384x26x1] S16384x26x2 2
  reducesTo_S16384x26_S16384_d1 : S16384x26.ReducesTo [1] S16384
  h_S_ : 0 < S_.numel
  reducesTo_S16384x26x32_S16384x32_d1 : S16384x26x32.ReducesTo [1] S16384x32
  reducesTo_S16384x32_S16384_d1 : S16384x32.ReducesTo [1] S16384
  reducesTo_S16384x26x32_S16384_d1_2 : S16384x26x32.ReducesTo [1, 2] S16384
  bcast_S_S16384 : S_.BroadcastsInDim S16384 (![] : Fin 0 → Fin S16384.rank)
  shapeCasts_S16384x26x32_S16384x832 : S16384x26x32.ShapeCasts S16384x832
  concatenates_S16384x832_S16384x13_S16384x845_d1 : Shape.Concatenates [S16384x832, S16384x13] S16384x845 1
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  bcast_S_S16384x1024 : S_.BroadcastsInDim S16384x1024 (![] : Fin 0 → Fin S16384x1024.rank)
  bcast_S512_S1x512_1 : S512.BroadcastsInDim S1x512 (![1] : Fin 1 → Fin S1x512.rank)
  bcast_S1x512_S16384x512_0_1 : S1x512.BroadcastsInDim S16384x512 (![0, 1] : Fin 2 → Fin S16384x512.rank)
  bcast_S_S16384x512 : S_.BroadcastsInDim S16384x512 (![] : Fin 0 → Fin S16384x512.rank)
  bcast_S256_S1x256_1 : S256.BroadcastsInDim S1x256 (![1] : Fin 1 → Fin S1x256.rank)
  bcast_S1x256_S16384x256_0_1 : S1x256.BroadcastsInDim S16384x256 (![0, 1] : Fin 2 → Fin S16384x256.rank)
  bcast_S_S16384x256 : S_.BroadcastsInDim S16384x256 (![] : Fin 0 → Fin S16384x256.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  shapeCasts_S16384x1_S16384 : S16384x1.ShapeCasts S16384
  gather_S26x100000x32_S16384x26x2_S16384x26x32_2_01_n_n_01_2_1132_wf : GatherDims.WF S26x100000x32 S16384x26x2 S16384x26x32 [2] [0, 1] [] [0, 1] [] 2 ![1, 1, 32]
  gather_S26x100000_S16384x26x2_S16384x26_n_01_n_n_01_2_11_wf : GatherDims.WF S26x100000 S16384x26x2 S16384x26 [] [0, 1] [] [0, 1] [] 2 ![1, 1]
  dot_S16384x845_S845x1024_S16384x1024_1_0_0_1_n_n_wf : DotDims.WF S16384x845 S845x1024 S16384x1024 [1] [0] [0] [1] [] []
  dot_S16384x1024_S1024x512_S16384x512_1_0_0_1_n_n_wf : DotDims.WF S16384x1024 S1024x512 S16384x512 [1] [0] [0] [1] [] []
  dot_S16384x512_S512x256_S16384x256_1_0_0_1_n_n_wf : DotDims.WF S16384x512 S512x256 S16384x256 [1] [0] [0] [1] [] []
  dot_S16384x256_S256x1_S16384x1_1_0_0_1_n_n_wf : DotDims.WF S16384x256 S256x1 S16384x1 [1] [0] [0] [1] [] []

variable [Facts₀]

def gather_S26x100000x32_S16384x26x2_S16384x26x32_2_01_n_n_01_2_1132 : GatherDims S26x100000x32 S16384x26x2 S16384x26x32 where
  offsetDims := [2]
  collapsedSliceDims := [0, 1]
  operandBatchingDims := []
  startIndicesBatchingDims := []
  startIndexMap := [0, 1]
  indexVectorDim := 2
  sliceSizes := ![1, 1, 32]
  wf := gather_S26x100000x32_S16384x26x2_S16384x26x32_2_01_n_n_01_2_1132_wf
def gather_S26x100000_S16384x26x2_S16384x26_n_01_n_n_01_2_11 : GatherDims S26x100000 S16384x26x2 S16384x26 where
  offsetDims := []
  collapsedSliceDims := [0, 1]
  operandBatchingDims := []
  startIndicesBatchingDims := []
  startIndexMap := [0, 1]
  indexVectorDim := 2
  sliceSizes := ![1, 1]
  wf := gather_S26x100000_S16384x26x2_S16384x26_n_01_n_n_01_2_11_wf
def dot_S16384x845_S845x1024_S16384x1024_1_0_0_1_n_n : DotDims S16384x845 S845x1024 S16384x1024 where
  lhsContracting := [1]
  rhsContracting := [0]
  lhsNonContracting := [0]
  rhsNonContracting := [1]
  lhsBatch := []
  rhsBatch := []
  wf := dot_S16384x845_S845x1024_S16384x1024_1_0_0_1_n_n_wf
def dot_S16384x1024_S1024x512_S16384x512_1_0_0_1_n_n : DotDims S16384x1024 S1024x512 S16384x512 where
  lhsContracting := [1]
  rhsContracting := [0]
  lhsNonContracting := [0]
  rhsNonContracting := [1]
  lhsBatch := []
  rhsBatch := []
  wf := dot_S16384x1024_S1024x512_S16384x512_1_0_0_1_n_n_wf
def dot_S16384x512_S512x256_S16384x256_1_0_0_1_n_n : DotDims S16384x512 S512x256 S16384x256 where
  lhsContracting := [1]
  rhsContracting := [0]
  lhsNonContracting := [0]
  rhsNonContracting := [1]
  lhsBatch := []
  rhsBatch := []
  wf := dot_S16384x512_S512x256_S16384x256_1_0_0_1_n_n_wf
def dot_S16384x256_S256x1_S16384x1_1_0_0_1_n_n : DotDims S16384x256 S256x1 S16384x1 where
  lhsContracting := [1]
  rhsContracting := [0]
  lhsNonContracting := [0]
  rhsNonContracting := [1]
  lhsBatch := []
  rhsBatch := []
  wf := dot_S16384x256_S256x1_S16384x1_1_0_0_1_n_n_wf

class Facts : Prop extends Facts₀ where

variable [Facts]
-- ==== Proof.Net.lean ====
/-
  The function both programs compute on one row of the batch, over the extended reals.

  A row `x` of 845 entries goes through three dense layers, each `x ↦ max (x · W + b) 0` entry by entry, then through
  a product with one column and a bias, which gives the row's network logit `d`. The row's result is the logistic
  function of `(lin + fm) + d`, where `lin` and `fm` are two further numbers of the row (its linear logit and its
  pairwise-interaction logit). Every sum here is a finite sum of extended reals over a literal `Fin K`; nothing is
  rounded and no order of summation is fixed.

  The last lemma reads a matrix product into a zero accumulator at an index, for the plain two-axis record
  (rows by contraction, contraction by columns), as that finite sum.
-/
import Idealize.ShloMosaic.PureOps.Ideal
import Idealize.ShloMosaic.PureOps.Ideal.Laws
import Idealize.ShloMosaic.Lib.ValueIdx
import Idealize.ShloMosaic.Lib.StackMember

noncomputable section

namespace Cert.Net

open Idealize.ShloMosaic Idealize.ShloMosaic.ValueIdx

/-- Row `p` of a matrix given over rank-2 indices. -/
def row {M K : Nat} (a : (⟨2, ![M, K]⟩ : Shape).Idx → EReal) (p : Fin M) : Fin K → EReal := fun k => a (ix2 p k)

/-- The rectifier's floor: the number the word of the float zero denotes. -/
def floor0 : EReal := Ideal.ofBits .f32 0x00000000#32

/-- One dense layer with its rectifier on a row `x` of `K` entries: entry `j` of the result is the larger of
    `(∑ k, x k * W (k, j)) + b j` and the floor. -/
def dense {K N : Nat} (W : (⟨2, ![K, N]⟩ : Shape).Idx → EReal) (b : (⟨1, ![N]⟩ : Shape).Idx → EReal)
    (x : Fin K → EReal) : Fin N → EReal :=
  fun j => max ((∑ k : Fin K, x k * W (ix2 k j)) + b (ix1 j)) floor0

/-- The network logit of a row: three dense layers, then the product with the one column of `Wout` plus `bout`. -/
def logit (W0 : (⟨2, ![845, 1024]⟩ : Shape).Idx → EReal) (b0 : (⟨1, ![1024]⟩ : Shape).Idx → EReal)
    (W1 : (⟨2, ![1024, 512]⟩ : Shape).Idx → EReal) (b1 : (⟨1, ![512]⟩ : Shape).Idx → EReal)
    (W2 : (⟨2, ![512, 256]⟩ : Shape).Idx → EReal) (b2 : (⟨1, ![256]⟩ : Shape).Idx → EReal)
    (Wout : (⟨2, ![256, 1]⟩ : Shape).Idx → EReal) (bout : (⟨1, ![1]⟩ : Shape).Idx → EReal)
    (x : Fin 845 → EReal) : EReal :=
  (∑ k : Fin 256, dense W2 b2 (dense W1 b1 (dense W0 b0 x)) k * Wout (ix2 k (0 : Fin 1))) + bout (ix1 (0 : Fin 1))

/-- The row's result from its three logits. -/
def prob (lin fm d : EReal) : EReal := Ideal.logistic ((lin + fm) + d)

/-- The whole result, one entry per row of the batch: `X` holds the rows, `FM` and `LIN` one number per row. -/
def result (X : (⟨2, ![16384, 845]⟩ : Shape).Idx → EReal)
    (FM LIN : (⟨1, ![16384]⟩ : Shape).Idx → EReal)
    (W0 : (⟨2, ![845, 1024]⟩ : Shape).Idx → EReal) (b0 : (⟨1, ![1024]⟩ : Shape).Idx → EReal)
    (W1 : (⟨2, ![1024, 512]⟩ : Shape).Idx → EReal) (b1 : (⟨1, ![512]⟩ : Shape).Idx → EReal)
    (W2 : (⟨2, ![512, 256]⟩ : Shape).Idx → EReal) (b2 : (⟨1, ![256]⟩ : Shape).Idx → EReal)
    (Wout : (⟨2, ![256, 1]⟩ : Shape).Idx → EReal) (bout : (⟨1, ![1]⟩ : Shape).Idx → EReal) :
    (⟨1, ![16384]⟩ : Shape).Idx → EReal :=
  fun i => prob (LIN i) (FM i) (logit W0 b0 W1 b1 W2 b2 Wout bout (row X (i 0)))

/-- A matrix product into the zero accumulator, for the plain record of an `m × k` by `k × n` product, read at
    `(a, b)`: the sum over the contracted coordinate of the products of the entries. Both this product and the host's
    `dot_general` are, at an index, the sum over the record's contraction index; the host's is already read over
    `Fin k` in the library. -/
theorem matmul_plain_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) := by
  refine (Ideal.matmul_constant_zero_apply (DotDims.plain m k n) prec A B (ix2 a b)).trans ?_
  refine Eq.trans ?_ (StackMember.dotGeneral_plain_apply prec A B a b)
  exact (Ideal.dotGeneral_apply (DotDims.plain m k n) prec _ A B (ix2 a b)).symm

end Cert.Net

end
-- ==== Proof.KernelPayload.lean ====
/-
  The kernel's body, read at an index of its output block.

  The body computes, for the block of 2048 rows it is called on: three times a product with a weight matrix into a zero
  accumulator, plus the layer's bias repeated down the rows, floored at zero (the changes of float format in between are
  the identity on the extended reals); then a product with the one column of the last weights plus the last bias; and
  stores the logistic function of that number plus the row's two loaded logits. Each of the four products is the plain
  rows-by-columns product, so each reads at an index as a finite sum over the contracted coordinate, and row `p` of each
  layer's output is the dense layer of row `p` of its input. Put together, the stored value at `(p, q)` is the
  specification's result for row `p` of the loaded block.
-/
import proofs.«429873_j42863773614392_3_alg».proof.Proof.Gen.KernelIdeal.Skeleton
import proofs.«429873_j42863773614392_3_alg».proof.Proof.Net
import Idealize.ShloMosaic.Lib.ValueLayout
import Idealize.ShloMosaic.Lib.Pipeline.Value

noncomputable section

namespace Cert.KernelIdeal.Pay

open Idealize.ShloMosaic Idealize.ShloMosaic.ValueIdx Cert.KernelIdeal Cert.KernelIdeal.Gen Cert.Net

/-- Each of the body's four products is the plain rows-by-columns product of its sizes. -/
theorem rec0 : dot_S2048x845_S845x1024_S2048x1024_1_0_0_1_n_n = DotDims.plain 2048 845 1024 := rfl
theorem rec1 : dot_S2048x1024_S1024x512_S2048x512_1_0_0_1_n_n = DotDims.plain 2048 1024 512 := rfl
theorem rec2 : dot_S2048x512_S512x256_S2048x256_1_0_0_1_n_n = DotDims.plain 2048 512 256 := rfl
theorem rec3 : dot_S2048x256_S256x1_S2048x1_1_0_0_1_n_n = DotDims.plain 2048 256 1 := rfl

/-- One layer as the body spells it: the product into zero, plus the bias laid out as one row and repeated down the
    rows, floored at zero, the format changed. Row `p` of it is the dense layer of row `p` of the operand. -/
theorem layer_row {m k n : Nat} {φ₁ φ₂ : FTy} (a : FVec Ideal ⟨2, ![m, k]⟩ φ₁) (w : FVec Ideal ⟨2, ![k, n]⟩ φ₂)
    (b : FVec Ideal ⟨1, ![n]⟩ .f32) (h1 : (⟨1, ![n]⟩ : Shape).ShapeCasts ⟨2, ![1, n]⟩)
    (h2 : (⟨2, ![1, n]⟩ : Shape).Broadcasts ⟨2, ![m, n]⟩) (hb : FTy.bf16.bits < FTy.f32.bits) (p : Fin m) :
    row (truncf .bf16 (maximumf (addf (matmul (DotDims.plain m k n) none a w (constant ⟨2, ![m, n]⟩ .f32 0x00000000#32))
        (broadcastTo ⟨2, ![m, n]⟩ (shapeCast ⟨2, ![1, n]⟩ b h1) h2))
      (broadcast ⟨2, ![m, n]⟩ (Scalar.ofBits .f32 0x00000000#32))) hb) p
      = dense w b (row a p) := by
  funext j
  show max (matmul (DotDims.plain m k n) none a w (constant ⟨2, ![m, n]⟩ .f32 0x00000000#32) (ix2 p j)
      + broadcastTo ⟨2, ![m, n]⟩ (shapeCast ⟨2, ![1, n]⟩ b h1) h2 (ix2 p j)) (Ideal.ofBits .f32 0x00000000#32)
    = max ((∑ c : Fin k, a (ix2 p c) * w (ix2 c j)) + b (ix1 j)) (Ideal.ofBits .f32 0x00000000#32)
  rw [matmul_plain_apply, broadcastTo_1b_ab_apply, shapeCast_a_1a_apply]

/-- The body's last product at `(p, q)`: the three layers' output on row `p` times the one column of `wout`. -/
theorem pay2_apply (x0 : Vec Ideal S2048x845 .bf16) (w0 : Vec Ideal S845x1024 .bf16) (b0 : Vec Ideal S1024 .f32)
    (w1 : Vec Ideal S1024x512 .bf16) (b1 : Vec Ideal S512 .f32) (w2 : Vec Ideal S512x256 .bf16) (b2 : Vec Ideal S256 .f32)
    (wout : Vec Ideal S256x1 .bf16) (p : Fin 2048) (q : Fin 1) :
    k0_pay2 x0 w0 b0 w1 b1 w2 b2 wout (ix2 p q)
      = ∑ k : Fin 256, dense w2 b2 (dense w1 b1 (dense w0 b0 (row x0 p))) k * wout (ix2 k q) := by
  unfold k0_pay2
  simp only [rec0, rec1, rec2, rec3, shapeCast_self]
  rw [matmul_plain_apply]
  refine Finset.sum_congr rfl fun k _ => ?_
  refine congrArg (· * wout (ix2 k q)) ?_
  refine (congrFun (layer_row _ w2 b2 _ _ _ p) k).trans ?_
  rw [layer_row _ w1 b1 _ _ _ p, layer_row x0 w0 b0 _ _ _ p]

/-- The last bias, laid out as one entry and repeated down the rows, read at `(p, q)`. -/
theorem pay3_apply (bout : Vec Ideal S1 .f32) (p : Fin 2048) (q : Fin 1) :
    k0_pay3 bout (ix2 p q) = bout (ix1 q) := by
  unfold k0_pay3
  show broadcastTo S2048x1 (shapeCast S1x1 bout _) _ (ix2 p q) = _
  rw [broadcastTo_1b_ab_apply, shapeCast_a_1a_apply]

/-- The stored value at an index: the logistic function of the two loaded logits' sum plus the product's entry plus the bias's. -/
theorem pay1_apply (v34 v37 : FVec Ideal S2048x1 .f32) (fm lin : Vec Ideal S2048x1 .f32) (i : S2048x1.Idx) :
    k0_pay1 v34 v37 fm lin i = Ideal.logistic ((fm i + lin i) + (v34 i + v37 i)) := by
  unfold k0_pay1
  simp only [shapeCast_self]
  rfl

/-- THE BODY AT AN INDEX: what the body stores at `(p, q)` of its output block is the row's result, from the row's two
    loaded logits and row `p` of the loaded block of inputs. The body adds the two logits in the other order, which on
    the extended reals is the same sum. -/
theorem body_apply (x0 : Vec Ideal S2048x845 .bf16) (fm lin : Vec Ideal S2048x1 .f32) (w0 : Vec Ideal S845x1024 .bf16)
    (b0 : Vec Ideal S1024 .f32) (w1 : Vec Ideal S1024x512 .bf16) (b1 : Vec Ideal S512 .f32) (w2 : Vec Ideal S512x256 .bf16)
    (b2 : Vec Ideal S256 .f32) (wout : Vec Ideal S256x1 .bf16) (bout : Vec Ideal S1 .f32) (p : Fin 2048) (q : Fin 1) :
    k0_pay1 (k0_pay2 x0 w0 b0 w1 b1 w2 b2 wout) (k0_pay3 bout) fm lin (ix2 p q)
      = prob (lin (ix2 p q)) (fm (ix2 p q)) (logit w0 b0 w1 b1 w2 b2 wout bout (row x0 p)) := by
  rw [pay1_apply, pay2_apply, pay3_apply]
  obtain rfl : q = 0 := Subsingleton.elim _ _
  unfold prob logit
  rw [add_comm (fm (ix2 p 0)) (lin (ix2 p 0))]

end Cert.KernelIdeal.Pay

end
-- ==== Proof.KernelBlocks.lean ====
/-
  The kernel's run, read: what the result buffer holds afterwards.

  The kernel is launched at eight grid points. At point `t` it is given rows `2048 t … 2048 t + 2047` of the batch's
  inputs and of the two one-column arrays of logits, and the whole of every weight matrix and bias, and writes back rows
  `2048 t … 2048 t + 2047` of a one-column output array. By the body's reading at an index, what it writes back at row
  `p` of its block is the specification's result for row `2048 t + p` of the batch. The eight blocks tile the output
  array, so the array ends holding each row's result; the one host line after the region reshapes that column to one
  number per row.

  Written here: the arrays the region finds at their literal types; the index maps of the windows, decided over the
  eight points; each input block as a part of its array; what each point writes back; the cover; the array after the
  run; the reshape; and the run's post (the result, and the argument arrays unchanged).
-/
import proofs.«429873_j42863773614392_3_alg».proof.Proof.KernelIdealFrameP
import proofs.«429873_j42863773614392_3_alg».proof.Proof.Net
import proofs.«429873_j42863773614392_3_alg».proof.Proof.KernelPayload
import Idealize.ShloMosaic.Lib.ValueIdx
import Idealize.ShloMosaic.Lib.ValueLayout
import Idealize.ShloMosaic.Lib.Pipeline.Value
import Idealize.ShloMosaic.Lib.StableHlo.Run
import Idealize.ShloMosaic.Lib.Tactic

noncomputable section

namespace Cert.KernelIdeal.Blocks

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.GenP Cert.Net Cert.KernelIdeal.Pay

variable (m : (ℓ : Loc nD τ sig) → Buf (Elt Ideal) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a <;> rfl

/-! ## The arrays the region finds, at their literal types -/

/-- The batch's rows of inputs to the network, -/
abbrev xs (c : Dev nD) : Vec Ideal S16384x845 .bf16 := V m c main_v45
/-- each row's pairwise-interaction logit and its linear logit, as one-column arrays, -/
abbrev fms (c : Dev nD) : Vec Ideal S16384x1 .f32 := V m c main_v42
abbrev lins (c : Dev nD) : Vec Ideal S16384x1 .f32 := V m c main_v33
/-- and the network's weights and biases. -/
abbrev w0s (c : Dev nD) : Vec Ideal S845x1024 .bf16 := V m c main_v46
abbrev b0s (c : Dev nD) : Vec Ideal S1024 .f32 := V m c main_arg5
abbrev w1s (c : Dev nD) : Vec Ideal S1024x512 .bf16 := V m c main_v47
abbrev b1s (c : Dev nD) : Vec Ideal S512 .f32 := V m c main_arg7
abbrev w2s (c : Dev nD) : Vec Ideal S512x256 .bf16 := V m c main_v48
abbrev b2s (c : Dev nD) : Vec Ideal S256 .f32 := V m c main_arg9
abbrev wouts (c : Dev nD) : Vec Ideal S256x1 .bf16 := V m c main_v49
abbrev bouts (c : Dev nD) : Vec Ideal S1 .f32 := V m c main_arg11

/-- What the region's output array ends holding: at `(r, q)` the result of row `r`. -/
def outArr (c : Dev nD) : Vec Ideal S16384x1 .f32 := fun i =>
  prob (lins m c i) (fms m c i)
    (logit (w0s m c) (b0s m c) (w1s m c) (b1s m c) (w2s m c) (b2s m c) (wouts m c) (bouts m c) (row (xs m c) (i 0)))

/-! ## The printed index maps, decided over the grid's eight points -/

/-- The three row-blocked inputs and the output move with the point along the rows and stay at column block 0. -/
theorem idx_rows : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_11.index t (0 : Fin 2) = t.val ∧ win0_11.index t (1 : Fin 2) = 0 :=
  (by decide +kernel : ∀ t : Fin grid0.N, _)

/-- The weights and biases are one block each, at block index 0, at every point. -/
theorem idx_whole : ∀ t : Fin cfg0.N, win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = 0 ∧ win0_7.index t (1 : Fin 2) = 0
    ∧ win0_8.index t (0 : Fin 1) = 0
    ∧ win0_9.index t (0 : Fin 2) = 0 ∧ win0_9.index t (1 : Fin 2) = 0
    ∧ win0_10.index t (0 : Fin 1) = 0 :=
  (by decide +kernel : ∀ t : Fin grid0.N, _)

/-! ## Each input block as a part of its array -/

/-- Entry `(p, k)` of the inputs' block at point `t` is entry `(2048 t + p, k)` of the array. -/
theorem blk0_apply (c : Dev nD) (t : Fin cfg0.N) (p : Fin 2048) (k : Fin 845) (r : Fin 16384)
    (hr : r.val = 2048 * t.val + p.val) :
    (iblk m c 0 t : Vec Ideal S2048x845 .bf16) (ix2 p k) = xs m c (ix2 r k) := by
  obtain ⟨e0, e1, -⟩ := idx_rows t
  unfold iblk
  rw [View.read_apply]
  show V m c main_v45 _ = V m c main_v45 _
  congr 1
  funext a
  apply Fin.ext
  match a with
  | ⟨0, _⟩ => show win0_0.index t 0 * 2048 + 1 * p.val = r.val; rw [e0, hr]; omega
  | ⟨1, _⟩ => show win0_0.index t 1 * 845 + 1 * k.val = k.val; rw [e1]; omega

/-- The same for the two one-column arrays of logits. -/
theorem blk1_apply (c : Dev nD) (t : Fin cfg0.N) (p : Fin 2048) (q : Fin 1) (r : Fin 16384)
    (hr : r.val = 2048 * t.val + p.val) :
    (iblk m c 1 t : Vec Ideal S2048x1 .f32) (ix2 p q) = fms m c (ix2 r q) := by
  obtain ⟨-, -, e0, e1, -⟩ := idx_rows t
  unfold iblk
  rw [View.read_apply]
  show V m c main_v42 _ = V m c main_v42 _
  congr 1
  funext a
  apply Fin.ext
  match a with
  | ⟨0, _⟩ => show win0_1.index t 0 * 2048 + 1 * p.val = r.val; rw [e0, hr]; omega
  | ⟨1, _⟩ => show win0_1.index t 1 * 1 + 1 * q.val = q.val; rw [e1]; omega

theorem blk2_apply (c : Dev nD) (t : Fin cfg0.N) (p : Fin 2048) (q : Fin 1) (r : Fin 16384)
    (hr : r.val = 2048 * t.val + p.val) :
    (iblk m c 2 t : Vec Ideal S2048x1 .f32) (ix2 p q) = lins m c (ix2 r q) := by
  obtain ⟨-, -, -, -, e0, e1, -⟩ := idx_rows t
  unfold iblk
  rw [View.read_apply]
  show V m c main_v33 _ = V m c main_v33 _
  congr 1
  funext a
  apply Fin.ext
  match a with
  | ⟨0, _⟩ => show win0_2.index t 0 * 2048 + 1 * p.val = r.val; rw [e0, hr]; omega
  | ⟨1, _⟩ => show win0_2.index t 1 * 1 + 1 * q.val = q.val; rw [e1]; omega

/-- A weight's or a bias's block is its whole array, at every point. -/
theorem blk3_eq (c : Dev nD) (t : Fin cfg0.N) : (iblk m c 3 t : Vec Ideal S845x1024 .bf16) = w0s m c := by
  obtain ⟨e0, e1, -⟩ := idx_whole t
  funext y
  unfold iblk
  rw [View.read_apply]
  show V m c main_v46 _ = V m c main_v46 y
  congr 1
  funext a
  apply Fin.ext
  match a with
  | ⟨0, _⟩ => show win0_3.index t 0 * 845 + 1 * (y 0).val = (y 0).val; rw [e0]; omega
  | ⟨1, _⟩ => show win0_3.index t 1 * 1024 + 1 * (y 1).val = (y 1).val; rw [e1]; omega

theorem blk4_eq (c : Dev nD) (t : Fin cfg0.N) : (iblk m c 4 t : Vec Ideal S1024 .f32) = b0s m c := by
  obtain ⟨-, -, e0, -⟩ := idx_whole t
  funext y
  unfold iblk
  rw [View.read_apply]
  show V m c main_arg5 _ = V m c main_arg5 y
  congr 1
  funext a
  apply Fin.ext
  match a with
  | ⟨0, _⟩ => show win0_4.index t 0 * 1024 + 1 * (y 0).val = (y 0).val; rw [e0]; omega

theorem blk5_eq (c : Dev nD) (t : Fin cfg0.N) : (iblk m c 5 t : Vec Ideal S1024x512 .bf16) = w1s m c := by
  obtain ⟨-, -, -, e0, e1, -⟩ := idx_whole t
  funext y
  unfold iblk
  rw [View.read_apply]
  show V m c main_v47 _ = V m c main_v47 y
  congr 1
  funext a
  apply Fin.ext
  match a with
  | ⟨0, _⟩ => show win0_5.index t 0 * 1024 + 1 * (y 0).val = (y 0).val; rw [e0]; omega
  | ⟨1, _⟩ => show win0_5.index t 1 * 512 + 1 * (y 1).val = (y 1).val; rw [e1]; omega

theorem blk6_eq (c : Dev nD) (t : Fin cfg0.N) : (iblk m c 6 t : Vec Ideal S512 .f32) = b1s m c := by
  obtain ⟨-, -, -, -, -, e0, -⟩ := idx_whole t
  funext y
  unfold iblk
  rw [View.read_apply]
  show V m c main_arg7 _ = V m c main_arg7 y
  congr 1
  funext a
  apply Fin.ext
  match a with
  | ⟨0, _⟩ => show win0_6.index t 0 * 512 + 1 * (y 0).val = (y 0).val; rw [e0]; omega

theorem blk7_eq (c : Dev nD) (t : Fin cfg0.N) : (iblk m c 7 t : Vec Ideal S512x256 .bf16) = w2s m c := by
  obtain ⟨-, -, -, -, -, -, e0, e1, -⟩ := idx_whole t
  funext y
  unfold iblk
  rw [View.read_apply]
  show V m c main_v48 _ = V m c main_v48 y
  congr 1
  funext a
  apply Fin.ext
  match a with
  | ⟨0, _⟩ => show win0_7.index t 0 * 512 + 1 * (y 0).val = (y 0).val; rw [e0]; omega
  | ⟨1, _⟩ => show win0_7.index t 1 * 256 + 1 * (y 1).val = (y 1).val; rw [e1]; omega

theorem blk8_eq (c : Dev nD) (t : Fin cfg0.N) : (iblk m c 8 t : Vec Ideal S256 .f32) = b2s m c := by
  obtain ⟨-, -, -, -, -, -, -, -, e0, -⟩ := idx_whole t
  funext y
  unfold iblk
  rw [View.read_apply]
  show V m c main_arg9 _ = V m c main_arg9 y
  congr 1
  funext a
  apply Fin.ext
  match a with
  | ⟨0, _⟩ => show win0_8.index t 0 * 256 + 1 * (y 0).val = (y 0).val; rw [e0]; omega

theorem blk9_eq (c : Dev nD) (t : Fin cfg0.N) : (iblk m c 9 t : Vec Ideal S256x1 .bf16) = wouts m c := by
  obtain ⟨-, -, -, -, -, -, -, -, -, e0, e1, -⟩ := idx_whole t
  funext y
  unfold iblk
  rw [View.read_apply]
  show V m c main_v49 _ = V m c main_v49 y
  congr 1
  funext a
  apply Fin.ext
  match a with
  | ⟨0, _⟩ => show win0_9.index t 0 * 256 + 1 * (y 0).val = (y 0).val; rw [e0]; omega
  | ⟨1, _⟩ => show win0_9.index t 1 * 1 + 1 * (y 1).val = (y 1).val; rw [e1]; omega

theorem blk10_eq (c : Dev nD) (t : Fin cfg0.N) : (iblk m c 10 t : Vec Ideal S1 .f32) = bouts m c := by
  obtain ⟨-, -, -, -, -, -, -, -, -, -, -, e0⟩ := idx_whole t
  funext y
  unfold iblk
  rw [View.read_apply]
  show V m c main_arg11 _ = V m c main_arg11 y
  congr 1
  funext a
  apply Fin.ext
  match a with
  | ⟨0, _⟩ => show win0_10.index t 0 * 1 + 1 * (y 0).val = (y 0).val; rw [e0]; omega

/-! ## What each point writes back, and the array after the run -/

/-- Any array read through the output window's block at point `t`: entry `y` of the block is the array's entry at the
    block's embedding of `y`. -/
theorem read_out (G : Vec Ideal S16384x1 .f32) (t : Fin cfg0.N) (y : S2048x1.Idx) :
    ((cfg0.win 11).blk t).view.read (Elt Ideal) G y = G (((cfg0.win 11).blk t).view.emb y) := rfl

/-- WHAT POINT `t` WRITES BACK is block `t` of `outArr`: the body's stored value at `(p, q)` is the result of row
    `2048 t + p`, whose inputs and logits are row `p` of the point's blocks. -/
theorem flushed_eq (c : Dev nD) (t : Fin cfg0.N) :
    (dats m 0 c).flushed 11 t = ((cfg0.win 11).blk t).view.read (Elt Ideal) (outArr m c) := by
  show (cfg0.win 11).cut (grid0.coords t) ((dats m 0 c).after 11 t) = _
  rw [after0_11]
  unfold out0_11
  rw [View.canon_unit_zero hz2]
  simp only [View.ld_unit_zero (S := S2048x845) hz2, View.ld_unit_zero (S := S2048x1) hz2,
    View.ld_unit_zero (S := S845x1024) hz2, View.ld_unit_zero (S := S1024) hz1,
    View.ld_unit_zero (S := S1024x512) hz2, View.ld_unit_zero (S := S512) hz1,
    View.ld_unit_zero (S := S512x256) hz2, View.ld_unit_zero (S := S256) hz1,
    View.ld_unit_zero (S := S256x1) hz2, View.ld_unit_zero (S := S1) hz1]
  rw [blk3_eq, blk4_eq, blk5_eq, blk6_eq, blk7_eq, blk8_eq, blk9_eq, blk10_eq]
  funext j
  obtain ⟨p, q, rfl⟩ : ∃ (p : Fin 2048) (q : Fin 1), j = ix2 p q := ⟨j 0, j 1, eq_ix2 j⟩
  have hN : cfg0.N = 8 := N_0
  have ht : t.val < 8 := hN ▸ t.isLt
  let r : Fin 16384 := ⟨2048 * t.val + p.val, by have := p.isLt; omega⟩
  have hr : r.val = 2048 * t.val + p.val := rfl
  obtain ⟨-, -, -, -, -, -, e0, e1⟩ := idx_rows t
  have he : ((cfg0.win 11).blk t).view.emb (ix2 p q) = ix2 r q := by
    funext a
    apply Fin.ext
    match a with
    | ⟨0, _⟩ => show win0_11.index t 0 * 2048 + 1 * p.val = r.val; rw [e0, hr]; omega
    | ⟨1, _⟩ => show win0_11.index t 1 * 1 + 1 * q.val = q.val; rw [e1]; omega
  have h0 : row (iblk m c 0 t : Vec Ideal S2048x845 .bf16) p = row (xs m c) r :=
    funext fun k => blk0_apply m c t p k r hr
  refine (body_apply (iblk m c 0 t) (iblk m c 1 t) (iblk m c 2 t) (w0s m c) (b0s m c) (w1s m c) (b1s m c)
    (w2s m c) (b2s m c) (wouts m c) (bouts m c) p q).trans ?_
  rw [read_out, he, h0, blk1_apply m c t p q r hr, blk2_apply m c t p q r hr]
  rfl

/-- An index of the output array is in point `t`'s block iff each coordinate is in the block's range on its axis. -/
theorem mem_blk (t : Fin cfg0.N) (i : S16384x1.Idx) :
    i ∈ ((cfg0.win 11).blk t).view.set
      ↔ ∀ a : Fin 2, win0_11.index t a * S2048x1.size a ≤ (i a).val ∧ (i a).val < win0_11.index t a * S2048x1.size a + S2048x1.size a := by
  show i ∈ ((View.whole main_v50).slice (win0_11.rect t)).set ↔ _
  rw [View.set_slice_whole, Rect.mem_set_unit]
  exact Iff.rfl

/-- THE ARRAY after the run: the eight blocks of 2048 rows tile it (row `r` is in the block of point `r / 2048`), so
    it holds `outArr` everywhere. -/
theorem final (c : Dev nD) : (dats m 0 c).arrAt 11 cfg0.N = outArr m c :=
  (dats m 0 c).arrAt_eq_of_cover 11 (outArr m c) (fun t _ => flushed_eq m c t) fun i => by
    have hi0 : (i 0).val < 16384 := (i 0).isLt
    have hi1 : (i 1).val < 1 := (i 1).isLt
    have hN : cfg0.N = 8 := N_0
    obtain ⟨-, -, -, -, -, -, e0, e1⟩ := idx_rows ⟨(i 0).val / 2048, by rw [hN]; omega⟩
    refine ⟨⟨(i 0).val / 2048, by rw [hN]; omega⟩, flush0_11 _, ?_⟩
    rw [mem_blk]
    intro a
    match a with
    | ⟨0, _⟩ =>
      show win0_11.index ⟨(i 0).val / 2048, _⟩ 0 * 2048 ≤ (i 0).val ∧ (i 0).val < win0_11.index ⟨(i 0).val / 2048, _⟩ 0 * 2048 + 2048
      rw [e0]; show (i 0).val / 2048 * 2048 ≤ (i 0).val ∧ (i 0).val < (i 0).val / 2048 * 2048 + 2048; omega
    | ⟨1, _⟩ =>
      show win0_11.index ⟨(i 0).val / 2048, _⟩ 1 * 1 ≤ (i 1).val ∧ (i 1).val < win0_11.index ⟨(i 0).val / 2048, _⟩ 1 * 1 + 1
      rw [e1]; omega

/-! ## The line after the region, and the run -/

/-- A one-column array reshaped to one number per row reads, at `i`, the array at `(i, 0)`. -/
theorem shapeCast_a1_a_apply {α : Type} {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- THE RESULT: the host reshapes the region's output column to one number per row. -/
theorem tail_eq (c : Dev nD) :
    Pipeline.afterTail₀ cfgs (dats m) 0 (V0 m) [hostOps1] c main_v51
      = fun i : S16384.Idx => outArr m c (ix2 (i 0) (0 : Fin 1)) := by
  have hw : Pipeline.withArrays spec0 c (V0 m c) (fun w => (dats m 0 c).arrAt w cfg0.N) (Proc.devRef .tc main_v50)
      = outArr m c :=
    (Pipeline.withArrays_arr spec0 launch0.win.arr_inj c _ _ 11).trans (final m c)
  unfold Pipeline.afterTail₀
  show StableHlo.after hostOps1 _ (Proc.devRef .tc main_v51) = _
  after_results
  funext i
  obtain ⟨r, rfl⟩ : ∃ r : Fin 16384, i = ix1 r := ⟨i 0, eq_ix1 i⟩
  show shapeCast S16384 (Pipeline.withArrays spec0 c (V0 m c) (fun w => (dats m 0 c).arrAt w cfg0.N)
    (Proc.devRef .tc main_v50)) shapeCasts_S16384x1_S16384 (ix1 r) = _
  rw [hw]
  exact shapeCast_a1_a_apply (outArr m c) _ r

/-- The kernel's run, read: the result buffer ends at one number per row, row `r`'s being `outArr` at `(r, 0)`, and
    the argument arrays end as they were (a staged argument by the pipeline's own account of an input window, the
    others because no line of the program writes them). -/
theorem run : θ_run defs (onTc (τ := τ) (main (F := Ideal))) ⟨m, fun _ => 0, ρ⟩ fun r => ∀ c : Dev nD,
      r.2.mem ((c.tc : Thread nD τ).loc main_v51) = (fun i : S16384.Idx => outArr m c (ix2 (i 0) (0 : Fin 1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c =>
    ⟨((h c).2 main_v51 (Pipeline.mem_restRefs_of main_v51 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).1 4).trans (((dats m 0 c).arrAt_in 4 rfl _).trans ((A_eq m c 4).trans (V_main_arg5 m c))),
      ((h c).2 main_arg6 (Pipeline.mem_restRefs_of main_arg6 (by decide) (by decide))).trans (W_main_arg6 m (dats m) c),
      ((h c).1 6).trans (((dats m 0 c).arrAt_in 6 rfl _).trans ((A_eq m c 6).trans (V_main_arg7 m c))),
      ((h c).2 main_arg8 (Pipeline.mem_restRefs_of main_arg8 (by decide) (by decide))).trans (W_main_arg8 m (dats m) c),
      ((h c).1 8).trans (((dats m 0 c).arrAt_in 8 rfl _).trans ((A_eq m c 8).trans (V_main_arg9 m c))),
      ((h c).2 main_arg10 (Pipeline.mem_restRefs_of main_arg10 (by decide) (by decide))).trans (W_main_arg10 m (dats m) c),
      ((h c).1 10).trans (((dats m 0 c).arrAt_in 10 rfl _).trans ((A_eq m c 10).trans (V_main_arg11 m c)))⟩)
    (run_main m ρ)

end Cert.KernelIdeal.Blocks

end
-- ==== Proof.RefRows.lean ====
/-
  The reference, read row by row.

  The reference computes the same network on all 16384 rows at once: a `dot_general` with each weight matrix, the
  bias repeated down the rows, the larger of that and zero; then the product with the last column plus the last bias,
  reshaped to one number per row; and `1 / (1 + exp (-z))` of the sum `z` of the row's linear logit, its
  pairwise-interaction logit and that number. Each stage is read at an index by the generated lemmas; written here are
  the index equations between their composed index maps and plain coordinates, that row `r` of each activation is the
  dense layer of row `r` of the one before, and that the quotient above is the logistic function of `z` (the word
  of the float one denotes 1). The rows of inputs and the two logits per row stay named stages of the reference.
-/
import proofs.«429873_j42863773614392_3_alg».proof.Proof.Gen.ReferenceIdeal.Read
import proofs.«429873_j42863773614392_3_alg».proof.Proof.Net
import Idealize.ShloMosaic.PureOps.IdealRules

noncomputable section

namespace Cert.ReferenceIdeal.Rows

open Idealize.ShloMosaic Idealize.ShloMosaic.ValueIdx Cert.ReferenceIdeal Cert.ReferenceIdeal.Read Cert.Net

/-- The word of the float one denotes the number 1. -/
theorem one32 : Ideal.ofBits .f32 0x3F800000#32 = 1 := IdealRules.sign_bit.ideal_onePat .f32

/-- The reference's quotient `1 / (1 + exp (-z))`, over the words of the float one, is the logistic function of `z`. -/
theorem sigmoid_eq (z : EReal) :
    Ideal.div (Ideal.ofBits .f32 0x3F800000#32) (Ideal.ofBits .f32 0x3F800000#32 + Ideal.exp (-z)) = Ideal.logistic z := by
  rw [one32]
  rfl

/-- Row `r` of the first activation is the first dense layer of row `r` of the inputs. -/
theorem act0_row (x0 : (⟨S16384x26, .i32⟩ : BufTy).Contents (Elt Ideal)) (x1 : (⟨S16384x13, .f32⟩ : BufTy).Contents (Elt Ideal)) (x2 : (⟨S26x100000x32, .f32⟩ : BufTy).Contents (Elt Ideal)) (x4 : (⟨S845x1024, .f32⟩ : BufTy).Contents (Elt Ideal)) (x5 : (⟨S1024, .f32⟩ : BufTy).Contents (Elt Ideal)) (r : Fin 16384) :
    row (val_main_v47 (F := Ideal) x0 x1 x2 x4 x5) r = dense x4 x5 (row (val_main_v42 (F := Ideal) x0 x1 x2) r) := by
  funext j
  show val_main_v47 (F := Ideal) x0 x1 x2 x4 x5 (ix2 r j)
    = max ((∑ k : Fin 845, val_main_v42 (F := Ideal) x0 x1 x2 (ix2 r k) * x4 (ix2 k j)) + x5 (ix1 j)) floor0
  have e1 : ∀ k, lidx_main_v43 (ix2 r j) k = ix2 r k := fun k => funext fun a => by
    match a with | ⟨0, _⟩ => rfl | ⟨1, _⟩ => rfl
  have e2 : ∀ k, ridx_main_v43 (ix2 r j) k = ix2 k j := fun k => funext fun a => by
    match a with | ⟨0, _⟩ => rfl | ⟨1, _⟩ => rfl
  have e3 : idx_main_v44 (idx_main_v45 (ix2 r j)) = ix1 j := funext fun a => by
    match a with | ⟨0, _⟩ => rfl
  rw [val_main_v47_apply, val_main_v46_apply, val_main_v43_apply, val_main_v45_apply, val_main_v44_apply,
    val_main_call0_v0_apply, val_main_call0_cst_apply]
  simp only [e1, e2, e3]
  rfl

/-- The same for the second layer, -/
theorem act1_row (x0 : (⟨S16384x26, .i32⟩ : BufTy).Contents (Elt Ideal)) (x1 : (⟨S16384x13, .f32⟩ : BufTy).Contents (Elt Ideal)) (x2 : (⟨S26x100000x32, .f32⟩ : BufTy).Contents (Elt Ideal)) (x4 : (⟨S845x1024, .f32⟩ : BufTy).Contents (Elt Ideal)) (x5 : (⟨S1024, .f32⟩ : BufTy).Contents (Elt Ideal)) (x6 : (⟨S1024x512, .f32⟩ : BufTy).Contents (Elt Ideal)) (x7 : (⟨S512, .f32⟩ : BufTy).Contents (Elt Ideal)) (r : Fin 16384) :
    row (val_main_v52 (F := Ideal) x0 x1 x2 x4 x5 x6 x7) r = dense x6 x7 (row (val_main_v47 (F := Ideal) x0 x1 x2 x4 x5) r) := by
  funext j
  show val_main_v52 (F := Ideal) x0 x1 x2 x4 x5 x6 x7 (ix2 r j)
    = max ((∑ k : Fin 1024, val_main_v47 (F := Ideal) x0 x1 x2 x4 x5 (ix2 r k) * x6 (ix2 k j)) + x7 (ix1 j)) floor0
  have e1 : ∀ k, lidx_main_v48 (ix2 r j) k = ix2 r k := fun k => funext fun a => by
    match a with | ⟨0, _⟩ => rfl | ⟨1, _⟩ => rfl
  have e2 : ∀ k, ridx_main_v48 (ix2 r j) k = ix2 k j := fun k => funext fun a => by
    match a with | ⟨0, _⟩ => rfl | ⟨1, _⟩ => rfl
  have e3 : idx_main_v49 (idx_main_v50 (ix2 r j)) = ix1 j := funext fun a => by
    match a with | ⟨0, _⟩ => rfl
  rw [val_main_v52_apply, val_main_v51_apply, val_main_v48_apply, val_main_v50_apply, val_main_v49_apply,
    val_main_call1_v0_apply, val_main_call1_cst_apply]
  simp only [e1, e2, e3]
  rfl

/-- and for the third. -/
theorem act2_row (x0 : (⟨S16384x26, .i32⟩ : BufTy).Contents (Elt Ideal)) (x1 : (⟨S16384x13, .f32⟩ : BufTy).Contents (Elt Ideal)) (x2 : (⟨S26x100000x32, .f32⟩ : BufTy).Contents (Elt Ideal)) (x4 : (⟨S845x1024, .f32⟩ : BufTy).Contents (Elt Ideal)) (x5 : (⟨S1024, .f32⟩ : BufTy).Contents (Elt Ideal)) (x6 : (⟨S1024x512, .f32⟩ : BufTy).Contents (Elt Ideal)) (x7 : (⟨S512, .f32⟩ : BufTy).Contents (Elt Ideal)) (x8 : (⟨S512x256, .f32⟩ : BufTy).Contents (Elt Ideal)) (x9 : (⟨S256, .f32⟩ : BufTy).Contents (Elt Ideal)) (r : Fin 16384) :
    row (val_main_v57 (F := Ideal) x0 x1 x2 x4 x5 x6 x7 x8 x9) r
      = dense x8 x9 (row (val_main_v52 (F := Ideal) x0 x1 x2 x4 x5 x6 x7) r) := by
  funext j
  show val_main_v57 (F := Ideal) x0 x1 x2 x4 x5 x6 x7 x8 x9 (ix2 r j)
    = max ((∑ k : Fin 512, val_main_v52 (F := Ideal) x0 x1 x2 x4 x5 x6 x7 (ix2 r k) * x8 (ix2 k j)) + x9 (ix1 j)) floor0
  have e1 : ∀ k, lidx_main_v53 (ix2 r j) k = ix2 r k := fun k => funext fun a => by
    match a with | ⟨0, _⟩ => rfl | ⟨1, _⟩ => rfl
  have e2 : ∀ k, ridx_main_v53 (ix2 r j) k = ix2 k j := fun k => funext fun a => by
    match a with | ⟨0, _⟩ => rfl | ⟨1, _⟩ => rfl
  have e3 : idx_main_v54 (idx_main_v55 (ix2 r j)) = ix1 j := funext fun a => by
    match a with | ⟨0, _⟩ => rfl
  rw [val_main_v57_apply, val_main_v56_apply, val_main_v53_apply, val_main_v55_apply, val_main_v54_apply,
    val_main_call2_v0_apply, val_main_call2_cst_apply]
  simp only [e1, e2, e3]
  rfl

/-- The network logit of row `r`, as the reference reshapes it to one number per row. -/
theorem logit_row (x0 : (⟨S16384x26, .i32⟩ : BufTy).Contents (Elt Ideal)) (x1 : (⟨S16384x13, .f32⟩ : BufTy).Contents (Elt Ideal)) (x2 : (⟨S26x100000x32, .f32⟩ : BufTy).Contents (Elt Ideal)) (x4 : (⟨S845x1024, .f32⟩ : BufTy).Contents (Elt Ideal)) (x5 : (⟨S1024, .f32⟩ : BufTy).Contents (Elt Ideal)) (x6 : (⟨S1024x512, .f32⟩ : BufTy).Contents (Elt Ideal)) (x7 : (⟨S512, .f32⟩ : BufTy).Contents (Elt Ideal)) (x8 : (⟨S512x256, .f32⟩ : BufTy).Contents (Elt Ideal)) (x9 : (⟨S256, .f32⟩ : BufTy).Contents (Elt Ideal)) (x10 : (⟨S256x1, .f32⟩ : BufTy).Contents (Elt Ideal)) (x11 : (⟨S1, .f32⟩ : BufTy).Contents (Elt Ideal)) (r : Fin 16384) :
    val_main_v62 (F := Ideal) x0 x1 x2 x4 x5 x6 x7 x8 x9 x10 x11 (ix1 r)
      = logit x4 x5 x6 x7 x8 x9 x10 x11 (row (val_main_v42 (F := Ideal) x0 x1 x2) r) := by
  have e0 : idx_main_v62 (ix1 r) = ix2 r (0 : Fin 1) := funext fun a => by
    match a with | ⟨0, _⟩ => exact Fin.ext (Nat.div_one _) | ⟨1, _⟩ => rfl
  have e1 : ∀ k, lidx_main_v58 (ix2 r (0 : Fin 1)) k = ix2 r k := fun k => funext fun a => by
    match a with | ⟨0, _⟩ => rfl | ⟨1, _⟩ => rfl
  have e2 : ∀ k, ridx_main_v58 (ix2 r (0 : Fin 1)) k = ix2 k (0 : Fin 1) := fun k => funext fun a => by
    match a with | ⟨0, _⟩ => rfl | ⟨1, _⟩ => rfl
  have e3 : idx_main_v59 (idx_main_v60 (ix2 r (0 : Fin 1))) = ix1 (0 : Fin 1) := funext fun a => by
    match a with | ⟨0, _⟩ => rfl
  rw [val_main_v62_apply, e0, val_main_v61_apply, val_main_v58_apply, val_main_v60_apply, val_main_v59_apply]
  simp only [e1, e2, e3]
  unfold logit
  rw [← act0_row x0 x1 x2 x4 x5 r, ← act1_row x0 x1 x2 x4 x5 x6 x7 r, ← act2_row x0 x1 x2 x4 x5 x6 x7 x8 x9 r]
  rfl

/-- THE REFERENCE'S RESULT is the specification's, of the reference's own stages for the rows of inputs and the two
    logits per row. -/
theorem result_eq (x0 : (⟨S16384x26, .i32⟩ : BufTy).Contents (Elt Ideal)) (x1 : (⟨S16384x13, .f32⟩ : BufTy).Contents (Elt Ideal)) (x2 : (⟨S26x100000x32, .f32⟩ : BufTy).Contents (Elt Ideal)) (x3 : (⟨S26x100000, .f32⟩ : BufTy).Contents (Elt Ideal)) (x4 : (⟨S845x1024, .f32⟩ : BufTy).Contents (Elt Ideal)) (x5 : (⟨S1024, .f32⟩ : BufTy).Contents (Elt Ideal)) (x6 : (⟨S1024x512, .f32⟩ : BufTy).Contents (Elt Ideal)) (x7 : (⟨S512, .f32⟩ : BufTy).Contents (Elt Ideal)) (x8 : (⟨S512x256, .f32⟩ : BufTy).Contents (Elt Ideal)) (x9 : (⟨S256, .f32⟩ : BufTy).Contents (Elt Ideal)) (x10 : (⟨S256x1, .f32⟩ : BufTy).Contents (Elt Ideal)) (x11 : (⟨S1, .f32⟩ : BufTy).Contents (Elt Ideal)) :
    val_main_v70 (F := Ideal) x0 x1 x2 x3 x4 x5 x6 x7 x8 x9 x10 x11
      = result (val_main_v42 (F := Ideal) x0 x1 x2) (val_main_v40 (F := Ideal) x0 x2) (val_main_v32 (F := Ideal) x0 x3)
          x4 x5 x6 x7 x8 x9 x10 x11 := by
  funext i
  obtain ⟨r, rfl⟩ : ∃ r : Fin 16384, i = ix1 r := ⟨i 0, eq_ix1 i⟩
  rw [val_main_v70_apply, val_main_v69_apply, val_main_cst_12_apply, val_main_v68_apply, val_main_v67_apply,
    val_main_cst_11_apply, val_main_v66_apply, val_main_v65_apply, val_main_v64_apply, val_main_v63_apply, logit_row]
  simp only [Ideal.hostDivf_def, Ideal.ofBits_def, Ideal.addf_def, Ideal.hostUnary_exp_def, Ideal.hostNegf_def,
    Ideal.negf_def]
  rw [sigmoid_eq]
  unfold result prob
  rfl

end Cert.ReferenceIdeal.Rows

end
-- ==== Proof.Bridge.lean ====
/-
  The two programs' host lines before the network are the same lines.

  Both programs gather each row's embeddings and linear weights, sum them into the row's linear logit and its
  pairwise-interaction logit, and lay the embeddings side by side with the row's dense features. The kernel's program
  then changes the float format of those rows and of the weight matrices, which is the identity on the extended reals,
  and lays the two logits out as one-column arrays. So each array the kernel's region finds is, operation for
  operation, the reference's own stage for it (up to that format change and that layout), and the kernel's result, one
  number per row, is the specification's result of the reference's stages and the arguments.
-/
import proofs.«429873_j42863773614392_3_alg».proof.Proof.KernelBlocks
import proofs.«429873_j42863773614392_3_alg».proof.Proof.Gen.ReferenceIdeal.Read
import Idealize.ShloMosaic.Lib.StableHlo.Run
import Idealize.ShloMosaic.Lib.Pipeline.Value

noncomputable section

namespace Cert.KernelIdeal.Bridge

open Idealize.ShloMosaic Idealize.ShloMosaic.TcCoe Idealize.SL.Sem Idealize.ShloMosaic.StableHlo Idealize.ShloMosaic.ValueIdx
open Cert.KernelIdeal Cert.KernelIdeal.Gen Cert.KernelIdeal.GenP Cert.KernelIdeal.Blocks Cert.Net

variable (m : (ℓ : Loc nD τ sig) → Buf (Elt Ideal) ℓ)

/-- A change of float format is the identity on the extended reals. -/
theorem truncf_ideal {s : Shape} {φ ψ : FTy} (X : FVec Ideal s φ) (h : ψ.bits < φ.bits) :
    (truncf ψ X h : s.Idx → EReal) = X := rfl

/-- One number per row laid out as a column reads, at `(r, q)`, the row's number. -/
theorem column_apply (L : FVec Ideal S16384 .f32) (r : Fin 16384) (q : Fin 1) :
    broadcastInDim S16384x1 ![0] bcast_S16384_S16384x1_0 L (ix2 r q) = L (ix1 r) :=
  broadcastInDim_apply _ bcast_S16384_S16384x1_0 L (ix2 r q) (ix1 r) (fun a => match a with
    | ⟨0, _⟩ => by show r.val = if (16384 : Nat) = 1 then 0 else r.val; rw [if_neg (by decide)])

/-- The rows of inputs the region finds are the reference's concatenated rows (the gathered embeddings of each row laid
    side by side, then the row's dense features), their float format changed. -/
theorem xs_eq (c : Dev nD) :
    xs m c = (truncf .bf16 ((Cert.ReferenceIdeal.Read.val_main_v42 (F := Ideal) (m ((c.tc : Thread nD τ).loc main_arg0)) (m ((c.tc : Thread nD τ).loc main_arg1)) (m ((c.tc : Thread nD τ).loc main_arg2))) : FVec Ideal S16384x845 .f32) bitsLt_bf16_f32 : FVec Ideal S16384x845 .bf16) := by
  show StableHlo.after hostOps0 (fun b => m (c, b)) (Proc.devRef .tc main_v45) = _
  after_results_simp <;> rfl

/-- The pairwise-interaction logits the region finds are the reference's, one per row, laid out as a column. -/
theorem fms_eq (c : Dev nD) :
    fms m c = (broadcastInDim S16384x1 ![0] bcast_S16384_S16384x1_0 ((Cert.ReferenceIdeal.Read.val_main_v40 (F := Ideal) (m ((c.tc : Thread nD τ).loc main_arg0)) (m ((c.tc : Thread nD τ).loc main_arg2))) : FVec Ideal S16384 .f32) : FVec Ideal S16384x1 .f32) := by
  show StableHlo.after hostOps0 (fun b => m (c, b)) (Proc.devRef .tc main_v42) = _
  after_results_simp <;> rfl

/-- The linear logits likewise. -/
theorem lins_eq (c : Dev nD) :
    lins m c = (broadcastInDim S16384x1 ![0] bcast_S16384_S16384x1_0 ((Cert.ReferenceIdeal.Read.val_main_v32 (F := Ideal) (m ((c.tc : Thread nD τ).loc main_arg0)) (m ((c.tc : Thread nD τ).loc main_arg3))) : FVec Ideal S16384 .f32) : FVec Ideal S16384x1 .f32) := by
  show StableHlo.after hostOps0 (fun b => m (c, b)) (Proc.devRef .tc main_v33) = _
  after_results_simp <;> rfl

/-- Each weight matrix the region finds is the argument, its float format changed; -/
theorem w0s_eq (c : Dev nD) :
    w0s m c = (truncf .bf16 ((m ((c.tc : Thread nD τ).loc main_arg4)) : FVec Ideal S845x1024 .f32) bitsLt_bf16_f32 : FVec Ideal S845x1024 .bf16) := by
  show StableHlo.after hostOps0 (fun b => m (c, b)) (Proc.devRef .tc main_v46) = _
  after_results_simp <;> rfl
theorem w1s_eq (c : Dev nD) :
    w1s m c = (truncf .bf16 ((m ((c.tc : Thread nD τ).loc main_arg6)) : FVec Ideal S1024x512 .f32) bitsLt_bf16_f32 : FVec Ideal S1024x512 .bf16) := by
  show StableHlo.after hostOps0 (fun b => m (c, b)) (Proc.devRef .tc main_v47) = _
  after_results_simp <;> rfl
theorem w2s_eq (c : Dev nD) :
    w2s m c = (truncf .bf16 ((m ((c.tc : Thread nD τ).loc main_arg8)) : FVec Ideal S512x256 .f32) bitsLt_bf16_f32 : FVec Ideal S512x256 .bf16) := by
  show StableHlo.after hostOps0 (fun b => m (c, b)) (Proc.devRef .tc main_v48) = _
  after_results_simp <;> rfl
theorem wouts_eq (c : Dev nD) :
    wouts m c = (truncf .bf16 ((m ((c.tc : Thread nD τ).loc main_arg10)) : FVec Ideal S256x1 .f32) bitsLt_bf16_f32 : FVec Ideal S256x1 .bf16) := by
  show StableHlo.after hostOps0 (fun b => m (c, b)) (Proc.devRef .tc main_v49) = _
  after_results_simp <;> rfl

/-- each bias is the argument as launched: no host line writes it. -/
theorem b0s_eq (c : Dev nD) : b0s m c = (m ((c.tc : Thread nD τ).loc main_arg5)) := V_main_arg5 m c
theorem b1s_eq (c : Dev nD) : b1s m c = (m ((c.tc : Thread nD τ).loc main_arg7)) := V_main_arg7 m c
theorem b2s_eq (c : Dev nD) : b2s m c = (m ((c.tc : Thread nD τ).loc main_arg9)) := V_main_arg9 m c
theorem bouts_eq (c : Dev nD) : bouts m c = (m ((c.tc : Thread nD τ).loc main_arg11)) := V_main_arg11 m c

/-- THE KERNEL'S RESULT, one number per row, is the specification's result of the reference's stages for the rows of
    inputs and the two logits per row, and of the argument weights and biases. -/
theorem kernel_result_eq (c : Dev nD) :
    (fun i : S16384.Idx => outArr m c (ix2 (i 0) (0 : Fin 1)))
      = result (Cert.ReferenceIdeal.Read.val_main_v42 (F := Ideal) (m ((c.tc : Thread nD τ).loc main_arg0)) (m ((c.tc : Thread nD τ).loc main_arg1)) (m ((c.tc : Thread nD τ).loc main_arg2))) (Cert.ReferenceIdeal.Read.val_main_v40 (F := Ideal) (m ((c.tc : Thread nD τ).loc main_arg0)) (m ((c.tc : Thread nD τ).loc main_arg2))) (Cert.ReferenceIdeal.Read.val_main_v32 (F := Ideal) (m ((c.tc : Thread nD τ).loc main_arg0)) (m ((c.tc : Thread nD τ).loc main_arg3)))
          (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  funext i
  obtain ⟨r, rfl⟩ : ∃ r : Fin 16384, i = ix1 r := ⟨i 0, eq_ix1 i⟩
  show outArr m c (ix2 r (0 : Fin 1)) = _
  unfold outArr result
  rw [xs_eq, fms_eq, lins_eq, w0s_eq, w1s_eq, w2s_eq, wouts_eq, b0s_eq, b1s_eq, b2s_eq, bouts_eq]
  rw [column_apply, column_apply]
  simp only [truncf_ideal]

end Cert.KernelIdeal.Bridge

end
-- ==== Proof.lean ====
/-
  A click-through-rate model's forward pass (embedding lookups, a pairwise-interaction term and a three-layer network)
  as a Pallas kernel for the network, against its plain jnp reference: the two compute the same function over the
  extended reals.

  Both programs begin with the same host lines: per row of the batch, the gathered embeddings, the linear logit (the sum
  of the gathered linear weights) and the pairwise-interaction logit (half of the squared sum minus the sum of squares).
  The kernel's program hands the rows, laid side by side with the dense features, to a kernel that runs the network on
  2048 rows at a time: three times a product with a weight matrix, a bias and a rectifier, then a product with one
  column and a bias, and the logistic function of that number plus the two logits. The reference does the same on all
  rows at once with `dot_general` and spells the logistic function as `1 / (1 + exp (-z))`. On the extended reals a
  product into a zero accumulator and a `dot_general` are the same finite sum, a change of float format is the
  identity, the tiling into blocks of rows changes nothing, and the two orders in which the logits are added are one sum
  by commutativity; no finiteness of the inputs is used.

  The frames of the two kernel programs are the frame certificates of their launches; the reference's frame is its run
  with the result dropped; the idealization rewrote no operation, so there is nothing to preserve.
-/
import proofs.«429873_j42863773614392_3_alg».proof.Defs
import proofs.«429873_j42863773614392_3_alg».proof.Proof.Gen.Kernel
import proofs.«429873_j42863773614392_3_alg».proof.Proof.KernelFrameP
import proofs.«429873_j42863773614392_3_alg».proof.Proof.Gen.KernelIdeal
import proofs.«429873_j42863773614392_3_alg».proof.Proof.KernelIdealFrameP
import proofs.«429873_j42863773614392_3_alg».proof.Proof.Gen.ReferenceIdeal
import proofs.«429873_j42863773614392_3_alg».proof.Proof.Gen.ReferenceIdeal.Run
import proofs.«429873_j42863773614392_3_alg».proof.Proof.Gen.ReferenceIdeal.Read
import proofs.«429873_j42863773614392_3_alg».proof.Proof.Gen.Pre_finite_inputs
import proofs.«429873_j42863773614392_3_alg».proof.Proof.Net
import proofs.«429873_j42863773614392_3_alg».proof.Proof.KernelBlocks
import proofs.«429873_j42863773614392_3_alg».proof.Proof.RefRows
import proofs.«429873_j42863773614392_3_alg».proof.Proof.Bridge
import Idealize.ShloMosaic.Adequacy
import Idealize.ShloMosaic.Init

noncomputable section

namespace Cert.Proof

open Idealize.ShloMosaic Idealize.SL.Sem

/-- The word-level kernel program runs and leaves its arguments as they were. -/
theorem frame_kernel : Cert.frame_Kernel := fun m ρ _ => Cert.Kernel.GenP.frame m ρ

/-- So does the idealized one. -/
theorem frame_kernelIdeal : Cert.frame_KernelIdeal := fun m ρ _ => Cert.KernelIdeal.GenP.frame m ρ

/-- The reference runs and leaves its arguments as they were: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments both idealized programs end with the same result: the specification's
    result of the reference's stages for the rows of inputs and the two logits per row, and of the weights and biases. -/
theorem algebraic : Cert.algebraic_KernelIdeal_ReferenceIdeal := by
  intro m ρ m' ρ' _ hagree
  refine ⟨fun c => Cert.Net.result
      (Cert.ReferenceIdeal.Read.val_main_v42 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)))
      (Cert.ReferenceIdeal.Read.val_main_v40 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg2)))
      (Cert.ReferenceIdeal.Read.val_main_v32 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg3)))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · exact (θ_run Cert.KernelIdeal.defs _ _).mono
      (fun _ h c => ⟨(h c).1.trans (Cert.KernelIdeal.Bridge.kernel_result_eq m c), (h c).2⟩)
      (Cert.KernelIdeal.Blocks.run m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7, e8, e9, e10, e11⟩ := hagree c
    rw [Cert.ReferenceIdeal.Read.val_main_v70_eq, Cert.ReferenceIdeal.Rows.result_eq,
      e0, e1, e2, e3, e4, e5, e6, e7, e8, e9, e10, e11]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
